-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x200 : Shape := ⟨2, ![4096, 200]⟩
abbrev S4096 : Shape := ⟨1, ![4096]⟩
abbrev S1000000 : Shape := ⟨1, ![1000000]⟩
abbrev S1000000x64 : Shape := ⟨2, ![1000000, 64]⟩
abbrev S_ : Shape := ⟨0, ![]⟩

class Facts : Prop where
  bcast_S_S4096x200 : S_.BroadcastsInDim S4096x200 (![] : Fin 0 → Fin S4096x200.rank)
  reducesTo_S4096x200_S_d0_1 : S4096x200.ReducesTo [0, 1] S_
  h_S_ : 0 < S_.numel
  bcast_S_S4096 : S_.BroadcastsInDim S4096 (![] : Fin 0 → Fin S4096.rank)
  reducesTo_S4096_S_d0 : S4096.ReducesTo [0] S_
  bcast_S_S1000000 : S_.BroadcastsInDim S1000000 (![] : Fin 0 → Fin S1000000.rank)
  reducesTo_S1000000_S_d0 : S1000000.ReducesTo [0] S_
  bcast_S_S1000000x64 : S_.BroadcastsInDim S1000000x64 (![] : Fin 0 → Fin S1000000x64.rank)
  reducesTo_S1000000x64_S_d0_1 : S1000000x64.ReducesTo [0, 1] S_
  reducesTo_S_S_d : S_.ReducesTo [] S_

variable [Facts]

def fn_part2 {F : FTy → Type} [FloatOps F] (main_arg2 : FVec F S4096 .f32) (main_v30 : IVec S_ 1) (main_v32 : IVec S4096x200 1) : IVec S_ 1 :=
  let main_c_13 : IVec S_ 1 := constantI S_ 1 1#1
  let main_v33 : IVec S_ 1 := (fun x v => Host.reduce IntOp.andi x v reducesTo_S4096x200_S_d0_1 h_S_) main_v32 main_c_13
  let main_v34 : IVec S_ 1 := andi main_v30 main_v33
  let main_cst_14 : FVec F S_ .f32 := constant S_ .f32 0x00000000#32
  let main_v35 : FVec F S4096 .f32 := broadcastInDim S4096 ![] bcast_S_S4096 main_cst_14
  let main_v36 : IVec S4096 1 := cmpf .ogt main_arg2 main_v35
  let main_c_15 : IVec S_ 1 := constantI S_ 1 1#1
  let main_v37 : IVec S_ 1 := (fun x v => Host.reduce IntOp.andi x v reducesTo_S4096_S_d0 h_S_) main_v36 main_c_15
  let main_v38 : IVec S_ 1 := andi main_v34 main_v37
  main_v38

def fn_part1 {F : FTy → Type} [FloatOps F] (main_arg0 : IVec S4096x200 32) (main_arg2 : FVec F S4096 .f32) (main_arg5 : FVec F S_ .f32) (main_arg6 : FVec F S_ .f32) (main_v13 : IVec S_ 1) (main_v16 : IVec S1000000x64 1) : IVec S_ 1 :=
  let main_c_5 : IVec S_ 1 := constantI S_ 1 1#1
  let main_v17 : IVec S_ 1 := (fun x v => Host.reduce IntOp.andi x v reducesTo_S1000000x64_S_d0_1 h_S_) main_v16 main_c_5
  let main_v18 : IVec S_ 1 := andi main_v13 main_v17
  let main_v19 : FVec F S_ .f32 := Host.absf main_arg5
  let main_cst_6 : FVec F S_ .f32 := constant S_ .f32 0x7F800000#32
  let main_v20 : IVec S_ 1 := cmpf .olt main_v19 main_cst_6
  let main_c_7 : IVec S_ 1 := constantI S_ 1 1#1
  let main_v21 : IVec S_ 1 := (fun x v => Host.reduce IntOp.andi x v reducesTo_S_S_d h_S_) main_v20 main_c_7
  let main_v22 : IVec S_ 1 := andi main_v18 main_v21
  let main_v23 : FVec F S_ .f32 := Host.absf main_arg6
  let main_cst_8 : FVec F S_ .f32 := constant S_ .f32 0x7F800000#32
  let main_v24 : IVec S_ 1 := cmpf .olt main_v23 main_cst_8
  let main_c_9 : IVec S_ 1 := constantI S_ 1 1#1
  let main_v25 : IVec S_ 1 := (fun x v => Host.reduce IntOp.andi x v reducesTo_S_S_d h_S_) main_v24 main_c_9
  let main_v26 : IVec S_ 1 := andi main_v22 main_v25
  let main_c_10 : IVec S_ 32 := constantI S_ 32 0#32
  let main_v27 : IVec S4096x200 32 := broadcastInDim S4096x200 ![] bcast_S_S4096x200 main_c_10
  let main_v28 : IVec S4096x200 1 := cmpi .sge main_arg0 main_v27
  let main_c_11 : IVec S_ 1 := constantI S_ 1 1#1
  let main_v29 : IVec S_ 1 := (fun x v => Host.reduce IntOp.andi x v reducesTo_S4096x200_S_d0_1 h_S_) main_v28 main_c_11
  let main_v30 : IVec S_ 1 := andi main_v26 main_v29
  let main_c_12 : IVec S_ 32 := constantI S_ 32 1000000#32
  let main_v31 : IVec S4096x200 32 := broadcastInDim S4096x200 ![] bcast_S_S4096x200 main_c_12
  let main_v32 : IVec S4096x200 1 := cmpi .slt main_arg0 main_v31
  fn_part2 (F := F) main_arg2 main_v30 main_v32

def fn {F : FTy → Type} [FloatOps F] (main_arg0 : IVec S4096x200 32) (main_arg1 : FVec F S4096x200 .f32) (main_arg2 : FVec F S4096 .f32) (main_arg3 : FVec F S1000000 .f32) (main_arg4 : FVec F S1000000x64 .f32) (main_arg5 : FVec F S_ .f32) (main_arg6 : FVec F S_ .f32) : IVec S_ 1 :=
  let main_v0 : FVec F S4096x200 .f32 := Host.absf main_arg1
  let main_cst : FVec F S_ .f32 := constant S_ .f32 0x7F800000#32
  let main_v1 : FVec F S4096x200 .f32 := broadcastInDim S4096x200 ![] bcast_S_S4096x200 main_cst
  let main_v2 : IVec S4096x200 1 := cmpf .olt main_v0 main_v1
  let main_c : IVec S_ 1 := constantI S_ 1 1#1
  let main_v3 : IVec S_ 1 := (fun x v => Host.reduce IntOp.andi x v reducesTo_S4096x200_S_d0_1 h_S_) main_v2 main_c
  let main_v4 : FVec F S4096 .f32 := Host.absf main_arg2
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S1000000 .f32 := Host.absf main_arg3
  let main_cst_2 : FVec F S_ .f32 := constant S_ .f32 0x7F800000#32
  let main_v10 : FVec F S1000000 .f32 := broadcastInDim S1000000 ![] bcast_S_S1000000 main_cst_2
  let main_v11 : IVec S1000000 1 := cmpf .olt main_v9 main_v10
  let main_c_3 : IVec S_ 1 := constantI S_ 1 1#1
  let main_v12 : IVec S_ 1 := (fun x v => Host.reduce IntOp.andi x v reducesTo_S1000000_S_d0 h_S_) main_v11 main_c_3
  let main_v13 : IVec S_ 1 := andi main_v8 main_v12
  let main_v14 : FVec F S1000000x64 .f32 := Host.absf main_arg4
  let main_cst_4 : FVec F S_ .f32 := constant S_ .f32 0x7F800000#32
  let main_v15 : FVec F S1000000x64 .f32 := broadcastInDim S1000000x64 ![] bcast_S_S1000000x64 main_cst_4
  let main_v16 : IVec S1000000x64 1 := cmpf .olt main_v14 main_v15
  fn_part1 (F := F) main_arg0 main_arg2 main_arg5 main_arg6 main_v13 main_v16
-- ==== Kernel.lean ====
abbrev S4096x200 : Shape := ⟨2, ![4096, 200]⟩
abbrev S4096 : Shape := ⟨1, ![4096]⟩
abbrev S1000000 : Shape := ⟨1, ![1000000]⟩
abbrev S1000000x64 : Shape := ⟨2, ![1000000, 64]⟩
abbrev S_ : Shape := ⟨0, ![]⟩
abbrev S4096x200x1 : Shape := ⟨3, ![4096, 200, 1]⟩
abbrev S1 : Shape := ⟨1, ![1]⟩
abbrev S1x1x1 : Shape := ⟨3, ![1, 1, 1]⟩
abbrev S4096x200x64 : Shape := ⟨3, ![4096, 200, 64]⟩
abbrev S4096x1 : Shape := ⟨2, ![4096, 1]⟩
abbrev S1x1 : Shape := ⟨2, ![1, 1]⟩
abbrev S128x200 : Shape := ⟨2, ![128, 200]⟩
abbrev S128x200x64 : Shape := ⟨3, ![128, 200, 64]⟩
abbrev S128x1 : Shape := ⟨2, ![128, 1]⟩
abbrev S128 : Shape := ⟨1, ![128]⟩
abbrev S128x200x1 : Shape := ⟨3, ![128, 200, 1]⟩
abbrev S128x64 : Shape := ⟨2, ![128, 64]⟩

abbrev nBuf : Space → Nat
  | .hbm => 59
  | .vmem => 14
  | .smem => 0
  | _ => 0

abbrev bufTy : (tb : Table) → Fin (tcTables nBuf tb) → BufTy
  | .hbm, ⟨0, _⟩ => ⟨S4096x200, .i32⟩
  | .hbm, ⟨1, _⟩ => ⟨S4096x200, .f32⟩
  | .hbm, ⟨2, _⟩ => ⟨S4096, .f32⟩
  | .hbm, ⟨3, _⟩ => ⟨S1000000, .f32⟩
  | .hbm, ⟨4, _⟩ => ⟨S1000000x64, .f32⟩
  | .hbm, ⟨5, _⟩ => ⟨S_, .f32⟩
  | .hbm, ⟨6, _⟩ => ⟨S_, .f32⟩
  | .hbm, ⟨7, _⟩ => ⟨S_, .i32⟩
  | .hbm, ⟨8, _⟩ => ⟨S4096x200, .i32⟩
  | .hbm, ⟨9, _⟩ => ⟨S4096x200, .i1⟩
  | .hbm, ⟨10, _⟩ => ⟨S_, .i32⟩
  | .hbm, ⟨11, _⟩ => ⟨S4096x200, .i32⟩
  | .hbm, ⟨12, _⟩ => ⟨S4096x200, .i32⟩
  | .hbm, ⟨13, _⟩ => ⟨S4096x200, .i32⟩
  | .hbm, ⟨14, _⟩ => ⟨S4096x200x1, .i32⟩
  | .hbm, ⟨15, _⟩ => ⟨S1, .i32⟩
  | .hbm, ⟨16, _⟩ => ⟨S_, .i32⟩
  | .hbm, ⟨17, _⟩ => ⟨S4096x200x1, .i32⟩
  | .hbm, ⟨18, _⟩ => ⟨S4096x200x1, .i1⟩
  | .hbm, ⟨19, _⟩ => ⟨S1x1x1, .i32⟩
  | .hbm, ⟨20, _⟩ => ⟨S4096x200x1, .i32⟩
  | .hbm, ⟨21, _⟩ => ⟨S4096x200x1, .i1⟩
  | .hbm, ⟨22, _⟩ => ⟨S4096x200x1, .i1⟩
  | .hbm, ⟨23, _⟩ => ⟨S_, .i1⟩
  | .hbm, ⟨24, _⟩ => ⟨S4096x200, .i1⟩
  | .hbm, ⟨25, _⟩ => ⟨S4096x200, .f32⟩
  | .hbm, ⟨26, _⟩ => ⟨S_, .f32⟩
  | .hbm, ⟨27, _⟩ => ⟨S4096x200, .f32⟩
  | .hbm, ⟨28, _⟩ => ⟨S4096x200, .f32⟩
  | .hbm, ⟨29, _⟩ => ⟨S_, .i32⟩
  | .hbm, ⟨30, _⟩ => ⟨S4096x200, .i32⟩
  | .hbm, ⟨31, _⟩ => ⟨S4096x200, .i1⟩
  | .hbm, ⟨32, _⟩ => ⟨S_, .i32⟩
  | .hbm, ⟨33, _⟩ => ⟨S4096x200, .i32⟩
  | .hbm, ⟨34, _⟩ => ⟨S4096x200, .i32⟩
  | .hbm, ⟨35, _⟩ => ⟨S4096x200, .i32⟩
  | .hbm, ⟨36, _⟩ => ⟨S4096x200x1, .i32⟩
  | .hbm, ⟨37, _⟩ => ⟨S1, .i32⟩
  | .hbm, ⟨38, _⟩ => ⟨S_, .i32⟩
  | .hbm, ⟨39, _⟩ => ⟨S4096x200x1, .i32⟩
  | .hbm, ⟨40, _⟩ => ⟨S4096x200x1, .i1⟩
  | .hbm, ⟨41, _⟩ => ⟨S1x1x1, .i32⟩
  | .hbm, ⟨42, _⟩ => ⟨S4096x200x1, .i32⟩
  | .hbm, ⟨43, _⟩ => ⟨S4096x200x1, .i1⟩
  | .hbm, ⟨44, _⟩ => ⟨S4096x200x1, .i1⟩
  | .hbm, ⟨45, _⟩ => ⟨S_, .i1⟩
  | .hbm, ⟨46, _⟩ => ⟨S4096x200, .i1⟩
  | .hbm, ⟨47, _⟩ => ⟨S4096x200x64, .f32⟩
  | .hbm, ⟨48, _⟩ => ⟨S4096x200x64, .i1⟩
  | .hbm, ⟨49, _⟩ => ⟨S_, .f32⟩
  | .hbm, ⟨50, _⟩ => ⟨S4096x200x64, .f32⟩
  | .hbm, ⟨51, _⟩ => ⟨S4096x200x64, .f32⟩
  | .hbm, ⟨52, _⟩ => ⟨S4096x1, .f32⟩
  | .hbm, ⟨53, _⟩ => ⟨S1x1, .f32⟩
  | .hbm, ⟨54, _⟩ => ⟨S1x1, .f32⟩
  | .hbm, ⟨55, _⟩ => ⟨S4096x1, .f32⟩
  | .hbm, ⟨56, _⟩ => ⟨S4096x1, .f32⟩
  | .hbm, ⟨57, _⟩ => ⟨S4096, .f32⟩
  | .hbm, ⟨58, _⟩ => ⟨S4096, .f32⟩
  | .local _ .vmem, ⟨0, _⟩ => ⟨S128x200, .f32⟩
  | .local _ .vmem, ⟨1, _⟩ => ⟨S128x200, .f32⟩
  | .local _ .vmem, ⟨2, _⟩ => ⟨S128x200, .f32⟩
  | .local _ .vmem, ⟨3, _⟩ => ⟨S128x200, .f32⟩
  | .local _ .vmem, ⟨4, _⟩ => ⟨S128x200x64, .f32⟩
  | .local _ .vmem, ⟨5, _⟩ => ⟨S128x200x64, .f32⟩
  | .local _ .vmem, ⟨6, _⟩ => ⟨S128x1, .f32⟩
  | .local _ .vmem, ⟨7, _⟩ => ⟨S128x1, .f32⟩
  | .local _ .vmem, ⟨8, _⟩ => ⟨S1x1, .f32⟩
  | .local _ .vmem, ⟨9, _⟩ => ⟨S1x1, .f32⟩
  | .local _ .vmem, ⟨10, _⟩ => ⟨S128x1, .f32⟩
  | .local _ .vmem, ⟨11, _⟩ => ⟨S128x1, .f32⟩
  | .local _ .vmem, ⟨12, _⟩ => ⟨S128x1, .f32⟩
  | .local _ .vmem, ⟨13, _⟩ => ⟨S128x1, .f32⟩
  | _, _ => ⟨S4096x200, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_cst : Ref sig .tc := ⟨.hbm, 26, rfl⟩
abbrev main_call0_v14 : Ref sig .tc := ⟨.hbm, 27, rfl⟩
abbrev main_v0 : Ref sig .tc := ⟨.hbm, 28, rfl⟩
abbrev main_call1_c : Ref sig .tc := ⟨.hbm, 29, rfl⟩
abbrev main_call1_v0 : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_c_1 : Ref sig .tc := ⟨.hbm, 37, rfl⟩
abbrev main_call1_c_2 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_3 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_call1_cst : Ref sig .tc := ⟨.hbm, 49, rfl⟩
abbrev main_call1_v15 : Ref sig .tc := ⟨.hbm, 50, rfl⟩
abbrev main_v1 : Ref sig .tc := ⟨.hbm, 51, rfl⟩
abbrev main_v2 : Ref sig .tc := ⟨.hbm, 52, rfl⟩
abbrev main_v3 : Ref sig .tc := ⟨.hbm, 53, rfl⟩
abbrev main_v4 : Ref sig .tc := ⟨.hbm, 54, rfl⟩
abbrev main_v5_0 : Ref sig .tc := ⟨.hbm, 55, rfl⟩
abbrev main_v5_1 : Ref sig .tc := ⟨.hbm, 56, rfl⟩
abbrev main_v6 : Ref sig .tc := ⟨.hbm, 57, rfl⟩
abbrev main_v7 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x200 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x200x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S4096x200 : S_.BroadcastsInDim S4096x200 (![] : Fin 0 → Fin S4096x200.rank)
  bcast_S4096x200_S4096x200x1_0_1 : S4096x200.BroadcastsInDim S4096x200x1 (![0, 1] : Fin 2 → Fin S4096x200x1.rank)
  bcast_S_S4096x200x1 : S_.BroadcastsInDim S4096x200x1 (![] : Fin 0 → Fin S4096x200x1.rank)
  bcast_S1_S1x1x1_2 : S1.BroadcastsInDim S1x1x1 (![2] : Fin 1 → Fin S1x1x1.rank)
  bcast_S1x1x1_S4096x200x1_0_1_2 : S1x1x1.BroadcastsInDim S4096x200x1 (![0, 1, 2] : Fin 3 → Fin S4096x200x1.rank)
  reducesTo_S4096x200x1_S4096x200_d2 : S4096x200x1.ReducesTo [2] S4096x200
  h_S_ : 0 < S_.numel
  bcast_S4096x200_S4096x200x64_0_1 : S4096x200.BroadcastsInDim S4096x200x64 (![0, 1] : Fin 2 → Fin S4096x200x64.rank)
  bcast_S_S4096x200x64 : S_.BroadcastsInDim S4096x200x64 (![] : Fin 0 → Fin S4096x200x64.rank)
  shapeCasts_S4096_S4096x1 : S4096.ShapeCasts S4096x1
  shapeCasts_S_S1x1 : S_.ShapeCasts S1x1
  inb_S128x200_S128x200_0_0 : ∀ a, (![0, 0] : Fin 2 → Nat) a + S128x200.size a ≤ S128x200.size a
  h_S128x200 : 0 < S128x200.numel
  shapeCasts_S128x200_S128x200 : S128x200.ShapeCasts S128x200
  inb_S128x200x64_S128x200x64_0_0_0 : ∀ a, (![0, 0, 0] : Fin 3 → Nat) a + S128x200x64.size a ≤ S128x200x64.size a
  h_S128x200x64 : 0 < S128x200x64.numel
  shapeCasts_S128x200x64_S128x200x64 : S128x200x64.ShapeCasts S128x200x64
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  reduces_S128x200_S128 : S128x200.Reduces [1] S128
  shapeCasts_S128_S128x1 : S128.ShapeCasts S128x1
  broadcasts_S1x1_S128x1 : S1x1.Broadcasts S128x1
  shapeCasts_S128x200_S128x200x1 : S128x200.ShapeCasts S128x200x1
  broadcasts_S128x200x1_S128x200x64 : S128x200x1.Broadcasts S128x200x64
  reduces_S128x200x64_S128x64 : S128x200x64.Reduces [1] S128x64
  reduces_S128x200x64_S128x200 : S128x200x64.Reduces [2] S128x200
  reduces_S128x64_S128 : S128x64.Reduces [1] S128
  shapeCasts_S4096x1_S4096 : S4096x1.ShapeCasts S4096
  gather_S1000000_S4096x200x1_S4096x200_n_0_n_n_0_2_1_wf : GatherDims.WF S1000000 S4096x200x1 S4096x200 [] [0] [] [0] [] 2 ![1]
  gather_S1000000x64_S4096x200x1_S4096x200x64_2_0_n_n_0_2_164_wf : GatherDims.WF S1000000x64 S4096x200x1 S4096x200x64 [2] [0] [] [0] [] 2 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x200.size a ≤ S4096x200.size a
  hwx0_0 : ∀ i : grid0.Coords, EltTy.bits .f32 = 32 ∨ (Rect.block (s := S4096x200) S128x200.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x200.size a ≤ S4096x200.size a
  hwx0_1 : ∀ i : grid0.Coords, EltTy.bits .f32 = 32 ∨ (Rect.block (s := S4096x200) S128x200.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x200x64.size a ≤ S4096x200x64.size a
  hwx0_2 : ∀ i : grid0.Coords, EltTy.bits .f32 = 32 ∨ (Rect.block (s := S4096x200x64) S128x200x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x1.size a ≤ S4096x1.size a
  hwx0_3 : ∀ i : grid0.Coords, EltTy.bits .f32 = 32 ∨ (Rect.block (s := S4096x1) S128x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x1.size a ≤ S4096x1.size a
  hwx0_6 : ∀ i : grid0.Coords, EltTy.bits .f32 = 32 ∨ (Rect.block (s := S4096x1) S128x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x1.size a ≤ S4096x1.size a
  hwx0_7 : ∀ i : grid0.Coords, EltTy.bits .f32 = 32 ∨ (Rect.block (s := S4096x1) S128x1.size (cc0_transform_7 i) (hinb0_7 i)).WholeWords (EltTy.packing .f32)

variable [Facts₀]

def gather_S1000000_S4096x200x1_S4096x200_n_0_n_n_0_2_1 : GatherDims S1000000 S4096x200x1 S4096x200 where
  offsetDims := []
  collapsedSliceDims := [0]
  operandBatchingDims := []
  startIndicesBatchingDims := []
  startIndexMap := [0]
  indexVectorDim := 2
  sliceSizes := ![1]
  wf := gather_S1000000_S4096x200x1_S4096x200_n_0_n_n_0_2_1_wf
def gather_S1000000x64_S4096x200x1_S4096x200x64_2_0_n_n_0_2_164 : GatherDims S1000000x64 S4096x200x1 S4096x200x64 where
  offsetDims := [2]
  collapsedSliceDims := [0]
  operandBatchingDims := []
  startIndicesBatchingDims := []
  startIndexMap := [0]
  indexVectorDim := 2
  sliceSizes := ![1, 64]
  wf := gather_S1000000x64_S4096x200x1_S4096x200x64_2_0_n_n_0_2_164_wf

abbrev win0_0 : Pipeline.Window sig grid0 :=
  Pipeline.Window.ofSpec (Memref.whole main_arg1) S128x200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x200.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x200x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S128x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5_0) S128x1.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v5_1) S128x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4096x200 : Shape := ⟨2, ![4096, 200]⟩
abbrev S4096 : Shape := ⟨1, ![4096]⟩
abbrev S1000000 : Shape := ⟨1, ![1000000]⟩
abbrev S1000000x64 : Shape := ⟨2, ![1000000, 64]⟩
abbrev S_ : Shape := ⟨0, ![]⟩
abbrev S4096x200x1 : Shape := ⟨3, ![4096, 200, 1]⟩
abbrev S4096x200x64 : Shape := ⟨3, ![4096, 200, 64]⟩
abbrev S4096x64 : Shape := ⟨2, ![4096, 64]⟩

abbrev nBuf : Space → Nat
  | .hbm => 78
  | .vmem => 0
  | .smem => 0
  | _ => 0

abbrev bufTy : (tb : Table) → Fin (tcTables nBuf tb) → BufTy
  | .hbm, ⟨0, _⟩ => ⟨S4096x200, .i32⟩
  | .hbm, ⟨1, _⟩ => ⟨S4096x200, .f32⟩
  | .hbm, ⟨2, _⟩ => ⟨S4096, .f32⟩
  | .hbm, ⟨3, _⟩ => ⟨S1000000, .f32⟩
  | .hbm, ⟨4, _⟩ => ⟨S1000000x64, .f32⟩
  | .hbm, ⟨5, _⟩ => ⟨S_, .f32⟩
  | .hbm, ⟨6, _⟩ => ⟨S_, .f32⟩
  | .hbm, ⟨7, _⟩ => ⟨S_, .i32⟩
  | .hbm, ⟨8, _⟩ => ⟨S4096x200, .i32⟩
  | .hbm, ⟨9, _⟩ => ⟨S4096x200, .i1⟩
  | .hbm, ⟨10, _⟩ => ⟨S_, .i32⟩
  | .hbm, ⟨11, _⟩ => ⟨S4096x200, .i32⟩
  | .hbm, ⟨12, _⟩ => ⟨S4096x200, .i32⟩
  | .hbm, ⟨13, _⟩ => ⟨S4096x200, .i32⟩
  | .hbm, ⟨14, _⟩ => ⟨S4096x200x1, .i32⟩
  | .hbm, ⟨15, _⟩ => ⟨S4096x200, .f32⟩
  | .hbm, ⟨16, _⟩ => ⟨S4096x200, .f32⟩
  | .hbm, ⟨17, _⟩ => ⟨S_, .f32⟩
  | .hbm, ⟨18, _⟩ => ⟨S4096, .f32⟩
  | .hbm, ⟨19, _⟩ => ⟨S4096, .f32⟩
  | .hbm, ⟨20, _⟩ => ⟨S4096, .f32⟩
  | .hbm, ⟨21, _⟩ => ⟨S_, .i32⟩
  | .hbm, ⟨22, _⟩ => ⟨S4096x200, .i32⟩
  | .hbm, ⟨23, _⟩ => ⟨S4096x200, .i1⟩
  | .hbm, ⟨24, _⟩ => ⟨S_, .i32⟩
  | .hbm, ⟨25, _⟩ => ⟨S4096x200, .i32⟩
  | .hbm, ⟨26, _⟩ => ⟨S4096x200, .i32⟩
  | .hbm, ⟨27, _⟩ => ⟨S4096x200, .i32⟩
  | .hbm, ⟨28, _⟩ => ⟨S4096x200x1, .i32⟩
  | .hbm, ⟨29, _⟩ => ⟨S4096x200x64, .f32⟩
  | .hbm, ⟨30, _⟩ => ⟨S4096x200x1, .f32⟩
  | .hbm, ⟨31, _⟩ => ⟨S4096x200x64, .f32⟩
  | .hbm, ⟨32, _⟩ => ⟨S4096x200x64, .f32⟩
  | .hbm, ⟨33, _⟩ => ⟨S_, .f32⟩
  | .hbm, ⟨34, _⟩ => ⟨S4096x64, .f32⟩
  | .hbm, ⟨35, _⟩ => ⟨S4096x64, .f32⟩
  | .hbm, ⟨36, _⟩ => ⟨S_, .f32⟩
  | .hbm, ⟨37, _⟩ => ⟨S4096, .f32⟩
  | .hbm, ⟨38, _⟩ => ⟨S4096x200x64, .f32⟩
  | .hbm, ⟨39, _⟩ => ⟨S_, .f32⟩
  | .hbm, ⟨40, _⟩ => ⟨S4096, .f32⟩
  | .hbm, ⟨41, _⟩ => ⟨S4096, .f32⟩
  | .hbm, ⟨42, _⟩ => ⟨S_, .f32⟩
  | .hbm, ⟨43, _⟩ => ⟨S4096, .f32⟩
  | .hbm, ⟨44, _⟩ => ⟨S4096, .f32⟩
  | .hbm, ⟨45, _⟩ => ⟨S4096, .f32⟩
  | .hbm, ⟨46, _⟩ => ⟨S_, .f32⟩
  | .hbm, ⟨47, _⟩ => ⟨S4096, .f32⟩
  | .hbm, ⟨48, _⟩ => ⟨S4096, .f32⟩
  | .hbm, ⟨49, _⟩ => ⟨S4096, .f32⟩
  | .hbm, ⟨50, _⟩ => ⟨S4096, .f32⟩
  | .hbm, ⟨51, _⟩ => ⟨S4096, .i1⟩
  | .hbm, ⟨52, _⟩ => ⟨S4096, .f32⟩
  | .hbm, ⟨53, _⟩ => ⟨S4096, .f32⟩
  | .hbm, ⟨54, _⟩ => ⟨S4096, .f32⟩
  | .hbm, ⟨55, _⟩ => ⟨S4096, .f32⟩
  | .hbm, ⟨56, _⟩ => ⟨S4096, .f32⟩
  | .hbm, ⟨57, _⟩ => ⟨S4096, .f32⟩
  | .hbm, ⟨58, _⟩ => ⟨S4096, .f32⟩
  | .hbm, ⟨59, _⟩ => ⟨S4096, .f32⟩
  | .hbm, ⟨60, _⟩ => ⟨S4096, .f32⟩
  | .hbm, ⟨61, _⟩ => ⟨S_, .f32⟩
  | .hbm, ⟨62, _⟩ => ⟨S4096, .f32⟩
  | .hbm, ⟨63, _⟩ => ⟨S4096, .f32⟩
  | .hbm, ⟨64, _⟩ => ⟨S_, .f32⟩
  | .hbm, ⟨65, _⟩ => ⟨S4096, .f32⟩
  | .hbm, ⟨66, _⟩ => ⟨S4096, .f32⟩
  | .hbm, ⟨67, _⟩ => ⟨S_, .f32⟩
  | .hbm, ⟨68, _⟩ => ⟨S4096, .f32⟩
  | .hbm, ⟨69, _⟩ => ⟨S4096, .f32⟩
  | .hbm, ⟨70, _⟩ => ⟨S_, .f32⟩
  | .hbm, ⟨71, _⟩ => ⟨S4096, .f32⟩
  | .hbm, ⟨72, _⟩ => ⟨S4096, .i1⟩
  | .hbm, ⟨73, _⟩ => ⟨S_, .f32⟩
  | .hbm, ⟨74, _⟩ => ⟨S4096, .f32⟩
  | .hbm, ⟨75, _⟩ => ⟨S_, .f32⟩
  | .hbm, ⟨76, _⟩ => ⟨S4096, .f32⟩
  | .hbm, ⟨77, _⟩ => ⟨S4096, .f32⟩
  | _, _ => ⟨S4096x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_cst_6 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_call0_cst : Ref sig .tc := ⟨.hbm, 46, rfl⟩
abbrev main_call0_v0 : Ref sig .tc := ⟨.hbm, 47, rfl⟩
abbrev main_call0_v1 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_call0_v5 : Ref sig .tc := ⟨.hbm, 52, rfl⟩
abbrev main_call0_v6 : Ref sig .tc := ⟨.hbm, 53, rfl⟩
abbrev main_call0_v7 : Ref sig .tc := ⟨.hbm, 54, rfl⟩
abbrev main_call0_v8 : Ref sig .tc := ⟨.hbm, 55, rfl⟩
abbrev main_call0_v9 : Ref sig .tc := ⟨.hbm, 56, rfl⟩
abbrev main_call0_v10 : Ref sig .tc := ⟨.hbm, 57, rfl⟩
abbrev main_call0_v11 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_7 : Ref sig .tc := ⟨.hbm, 64, rfl⟩
abbrev main_v35 : Ref sig .tc := ⟨.hbm, 65, rfl⟩
abbrev main_v36 : Ref sig .tc := ⟨.hbm, 66, rfl⟩
abbrev main_cst_8 : Ref sig .tc := ⟨.hbm, 67, rfl⟩
abbrev main_v37 : Ref sig .tc := ⟨.hbm, 68, rfl⟩
abbrev main_v38 : Ref sig .tc := ⟨.hbm, 69, rfl⟩
abbrev main_cst_9 : Ref sig .tc := ⟨.hbm, 70, rfl⟩
abbrev main_v39 : Ref sig .tc := ⟨.hbm, 71, rfl⟩
abbrev main_v40 : Ref sig .tc := ⟨.hbm, 72, rfl⟩
abbrev main_cst_10 : Ref sig .tc := ⟨.hbm, 73, rfl⟩
abbrev main_v41 : Ref sig .tc := ⟨.hbm, 74, rfl⟩
abbrev main_cst_11 : Ref sig .tc := ⟨.hbm, 75, rfl⟩
abbrev main_v42 : Ref sig .tc := ⟨.hbm, 76, rfl⟩
abbrev main_v43 : Ref sig .tc := ⟨.hbm, 77, rfl⟩

abbrev nD : Nat := 1
abbrev τ : Topo := Topo.v7x

variable {F : FTy → Type} [FloatOps F]

class Facts₀ : Prop where
  bcast_S_S4096x200 : S_.BroadcastsInDim S4096x200 (![] : Fin 0 → Fin S4096x200.rank)
  bcast_S4096x200_S4096x200x1_0_1 : S4096x200.BroadcastsInDim S4096x200x1 (![0, 1] : Fin 2 → Fin S4096x200x1.rank)
  reducesTo_S4096x200_S4096_d1 : S4096x200.ReducesTo [1] S4096
  h_S_ : 0 < S_.numel
  bcast_S_S4096 : S_.BroadcastsInDim S4096 (![] : Fin 0 → Fin S4096.rank)
  bcast_S4096x200x1_S4096x200x64_0_1_2 : S4096x200x1.BroadcastsInDim S4096x200x64 (![0, 1, 2] : Fin 3 → Fin S4096x200x64.rank)
  reducesTo_S4096x200x64_S4096x64_d1 : S4096x200x64.ReducesTo [1] S4096x64
  reducesTo_S4096x64_S4096_d1 : S4096x64.ReducesTo [1] S4096
  reducesTo_S4096x200x64_S4096_d1_2 : S4096x200x64.ReducesTo [1, 2] S4096
  gather_S1000000_S4096x200x1_S4096x200_n_0_n_n_0_2_1_wf : GatherDims.WF S1000000 S4096x200x1 S4096x200 [] [0] [] [0] [] 2 ![1]
  gather_S1000000x64_S4096x200x1_S4096x200x64_2_0_n_n_0_2_164_wf : GatherDims.WF S1000000x64 S4096x200x1 S4096x200x64 [2] [0] [] [0] [] 2 ![1, 64]

variable [Facts₀]

def gather_S1000000_S4096x200x1_S4096x200_n_0_n_n_0_2_1 : GatherDims S1000000 S4096x200x1 S4096x200 where
  offsetDims := []
  collapsedSliceDims := [0]
  operandBatchingDims := []
  startIndicesBatchingDims := []
  startIndexMap := [0]
  indexVectorDim := 2
  sliceSizes := ![1]
  wf := gather_S1000000_S4096x200x1_S4096x200_n_0_n_n_0_2_1_wf
def gather_S1000000x64_S4096x200x1_S4096x200x64_2_0_n_n_0_2_164 : GatherDims S1000000x64 S4096x200x1 S4096x200x64 where
  offsetDims := [2]
  collapsedSliceDims := [0]
  operandBatchingDims := []
  startIndicesBatchingDims := []
  startIndexMap := [0]
  indexVectorDim := 2
  sliceSizes := ![1, 64]
  wf := gather_S1000000x64_S4096x200x1_S4096x200x64_2_0_n_n_0_2_164_wf

class Facts : Prop extends Facts₀ where

variable [Facts]
-- ==== Proof.Spec.lean ====
/-
  The mathematics both programs compute, stated once over the extended reals.

  One row of the model: from the row's gathered linear weights `a f`, gathered factor rows `w f k`, feature values `v f`
  and the intercept `c`, the pre-activation is
      (Σ_f a_f·v_f + c) + ½·( Σ_k (Σ_f w_fk·v_f)² − Σ_f Σ_k (w_fk·v_f)² ),
  the scale is its softplus, and the probability is 1 / (1 + (h / scale)^(−d)) for the row's price `h` and the shape `d`.
  The kernel spells the power as exp((0 − d)·log(h / scale)); the reference applies the power function. On a positive real
  base the two are one number (`Real.rpow_def_of_pos`), which is where positivity of `h` and finiteness of everything enter.
-/
import Idealize.ShloMosaic.PureOps.Ideal
import Idealize.ShloMosaic.PureOps.Ideal.Laws
import Idealize.ShloMosaic.Lib.ValueIdx

noncomputable section

namespace Cert.Surv

open Idealize.ShloMosaic Idealize.ShloMosaic.ValueIdx

/-- The words the programs spell: zero, one half, one. -/
abbrev zw : EReal := Ideal.ofBits .f32 0x00000000#32
abbrev hw : EReal := Ideal.ofBits .f32 0x3F000000#32
abbrev ow : EReal := Ideal.ofBits .f32 0x3F800000#32

/-- A row's pre-activation. -/
def preact (a v : Fin 200 → EReal) (w : Fin 200 → Fin 64 → EReal) (c : EReal) : EReal :=
  ((∑ f, a f * v f) + c)
    + hw * ((∑ k, (∑ f, w f k * v f) * (∑ f, w f k * v f)) - ∑ f, ∑ k, (w f k * v f) * (w f k * v f))

/-- The softplus as the kernel spells it: max(x, 0) + log1p(exp(0 − |x − 0|)), behind a test "x − 0 ≠ x − 0". -/
def spK (x : EReal) : EReal :=
  Scalar.select (Ideal.cmp .one (x - zw) (x - zw)) (x + zw)
    (max x zw + Ideal.log1p (Ideal.exp (zw - max (x - zw) (-(x - zw)))))

/-- The softplus as the reference spells it: the same with −|x − 0| a negation. -/
def spR (x : EReal) : EReal :=
  Scalar.select (Ideal.cmp .une (x - zw) (x - zw)) (x + zw)
    (max x zw + Ideal.log1p (Ideal.exp (-(max (x - zw) (-(x - zw))))))

/-- The kernel's probability: 1 / (1 + exp((0 − d)·log(h / softplus x))). -/
def probK (x h d : EReal) : EReal :=
  Ideal.div ow (ow + Ideal.exp ((zw - d) * Ideal.log (Ideal.div h (spK x))))

/-- The reference's probability: 1 / (1 + (h / softplus x)^(−d)). -/
def probR (x h d : EReal) : EReal :=
  Ideal.div ow (ow + Ideal.pow (Ideal.div h (spR x)) (-d))

/-- The binary decision: 1 where the probability is at least one half, else 0. -/
def binOf (p : EReal) : EReal := Scalar.select (Ideal.cmp .oge p hw) ow zw

/-- The zero word is the extended real zero. -/
theorem zw_eq : zw = 0 := Ideal.ofBits_zero_f32

/-- The one word is the extended real one. -/
theorem ow_eq : ow = 1 := by
  show Ideal.ofBits .f32 0x3F800000#32 = 1
  rw [show (1 : EReal) = ((1 : ℝ) : EReal) by norm_cast]
  simp [Ideal.ofBits, Ideal.ieee, -EReal.coe_mul]; norm_num

/-- The half word is the real one half. -/
theorem hw_eq : hw = ((1 / 2 : ℝ) : EReal) := by
  show Ideal.ofBits .f32 0x3F000000#32 = ((1 / 2 : ℝ) : EReal)
  simp [Ideal.ofBits, Ideal.ieee, -EReal.coe_mul]; norm_num

/-- The coercion of the reals into the extended reals carries the maximum to the maximum. -/
theorem coe_max (x y : ℝ) : ((max x y : ℝ) : EReal) = max (x : EReal) (y : EReal) :=
  EReal.coe_strictMono.monotone.map_max

/-- A finite sum of coerced reals is the coerced real sum. -/
theorem coe_sum {ι : Type} (s : Finset ι) (g : ι → ℝ) :
    ∑ i ∈ s, ((g i : ℝ) : EReal) = ((∑ i ∈ s, g i : ℝ) : EReal) := by
  classical
  induction s using Finset.induction_on with
  | empty => simp
  | insert a s ha ih => rw [Finset.sum_insert ha, Finset.sum_insert ha, ih, EReal.coe_add]

/-- The two spellings of the softplus agree at every extended real: the tests are one test, and 0 − y = −y. -/
theorem spK_eq_spR (x : EReal) : spK x = spR x := by
  unfold spK spR
  simp only [Ideal.ofBits_zero_f32, zero_sub]
  rfl

/-- The softplus of a real is a positive real: max(x, 0) + log(1 + e^(−|x|)), and the logarithm is of a number above 1. -/
theorem spR_coe (x : ℝ) : ∃ s : ℝ, 0 < s ∧ spR (x : EReal) = (s : EReal) := by
  refine ⟨max x 0 + Real.log (1 + Real.exp (-(max x (-x)))), ?_, ?_⟩
  · have h1 : 0 < Real.log (1 + Real.exp (-(max x (-x)))) :=
      Real.log_pos (by linarith [Real.exp_pos (-(max x (-x)))])
    have h2 : 0 ≤ max x 0 := le_max_right _ _
    linarith
  · unfold spR
    simp only [Ideal.ofBits_zero_f32, sub_zero]
    have hc : Ideal.cmp .une (x : EReal) (x : EReal) = 0#1 := by simp [Ideal.cmp]
    have hpos : ¬ (1 + Real.exp (-(max x (-x))) ≤ 0) := not_le.mpr (by positivity)
    rw [hc, select_zero, ← EReal.coe_neg, ← coe_max, ← EReal.coe_neg, Ideal.exp_coe, Ideal.log1p,
      ← EReal.coe_one, ← EReal.coe_add, Ideal.log_coe, if_neg hpos, ← EReal.coe_zero, ← coe_max,
      ← EReal.coe_add]

/-- On a real pre-activation, a positive real price and a real shape the two probabilities are one number:
    the softplus is a positive real, so the ratio is, and r^(−d) = exp(log r · (−d)) there. -/
theorem probK_eq_probR (x h d : ℝ) (hh : 0 < h) : probK (x : EReal) (h : EReal) (d : EReal) = probR (x : EReal) (h : EReal) (d : EReal) := by
  obtain ⟨s, hs, hsp⟩ := spR_coe x
  have hs0 : ¬ ((s : EReal) = 0) := by exact_mod_cast hs.ne'
  have hq : 0 < h * s⁻¹ := mul_pos hh (inv_pos.mpr hs)
  have hdiv : Ideal.div (h : EReal) (s : EReal) = ((h * s⁻¹ : ℝ) : EReal) := by
    rw [Ideal.div, if_neg hs0, ← EReal.coe_inv, ← EReal.coe_mul]
  have hK : Ideal.exp ((zw - (d : EReal)) * Ideal.log ((h * s⁻¹ : ℝ) : EReal))
      = ((Real.exp (-d * Real.log (h * s⁻¹)) : ℝ) : EReal) := by
    rw [zw_eq, zero_sub, ← EReal.coe_neg, Ideal.log_coe, if_neg (not_le.mpr hq), ← EReal.coe_mul,
      Ideal.exp_coe]
  have hR : Ideal.pow ((h * s⁻¹ : ℝ) : EReal) (-(d : EReal))
      = ((Real.exp (-d * Real.log (h * s⁻¹)) : ℝ) : EReal) := by
    rw [← EReal.coe_neg, Ideal.pow_coe_coe]
    congr 1
    show (h * s⁻¹) ^ (-d) = _
    rw [Real.rpow_def_of_pos hq, mul_comm]
  unfold probK probR
  rw [spK_eq_spR, hsp, hdiv, hK, hR]

/-- The pre-activation of real data is real: it is sums and products of reals and the real one half. -/
theorem preact_real (a v : Fin 200 → EReal) (w : Fin 200 → Fin 64 → EReal) (c : EReal)
    (ha : ∀ f, ∃ r : ℝ, a f = (r : EReal)) (hv : ∀ f, ∃ r : ℝ, v f = (r : EReal))
    (hw' : ∀ f k, ∃ r : ℝ, w f k = (r : EReal)) (hc : ∃ r : ℝ, c = (r : EReal)) :
    ∃ r : ℝ, preact a v w c = (r : EReal) := by
  choose a' ha' using ha
  choose v' hv' using hv
  choose w' hw'' using hw'
  obtain ⟨c', rfl⟩ := hc
  obtain rfl : a = fun f => ((a' f : ℝ) : EReal) := funext ha'
  obtain rfl : v = fun f => ((v' f : ℝ) : EReal) := funext hv'
  obtain rfl : w = fun f k => ((w' f k : ℝ) : EReal) := funext fun f => funext (hw'' f)
  refine ⟨((∑ f, a' f * v' f) + c')
    + (1 / 2) * ((∑ k, (∑ f, w' f k * v' f) * (∑ f, w' f k * v' f))
        - ∑ f, ∑ k, (w' f k * v' f) * (w' f k * v' f)), ?_⟩
  unfold preact
  rw [hw_eq]
  simp only [← EReal.coe_mul, coe_sum, ← EReal.coe_add, ← EReal.coe_sub]

end Cert.Surv

end
-- ==== Proof.KBody.lean ====
/-
  The kernel's body at one row of a block. The block of point t holds 128 rows; at row p the two stores write
  probK (preact of the row's gathered weights and feature values) (the row's price) (the shape) and the decision on it.
  Here: the lane reductions, the keepdims shape casts and the broadcasts read at an index, then the payloads.
-/
import proofs.«403920_j51737176047793_1_alg».proof.Proof.Gen.KernelIdeal.Frame
import proofs.«403920_j51737176047793_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Surv.K

open Idealize.ShloMosaic Idealize.ShloMosaic.ValueIdx Cert.KernelIdeal Cert.KernelIdeal.Gen Cert.Surv

/-! ## Layout operations of the body at an index -/

/-- A [128] vector viewed as a [128,1] column reads row p at (p, 0). -/
theorem col_apply (v : FVec Ideal S128 .f32) (h : (S128 : Shape).ShapeCasts S128x1) (p : Fin 128) :
    shapeCast S128x1 v h (ix2 p (0 : Fin 1)) = v (ix1 p) := by
  refine shapeCast_apply v h _ _ ?_
  rw [Shape.rowMajor_val_one, Shape.rowMajor_val_two]
  show p.val = p.val * 1 + 0
  omega

/-- A [1,1] value broadcast down a [128,1] column reads its one element everywhere. -/
theorem bcast11_apply (v : FVec Ideal S1x1 .f32) (h : (S1x1 : Shape).Broadcasts S128x1) (p : Fin 128) :
    broadcastTo S128x1 v h (ix2 p (0 : Fin 1)) = v (ix2 (0 : Fin 1) (0 : Fin 1)) := by
  refine broadcastTo_apply v h _ _ fun a => ?_
  match a with
  | ⟨0, _⟩ => rfl
  | ⟨1, _⟩ => rfl

/-- The feature values, given a trailing unit axis and broadcast along the 64 factors, read (p, f) at (p, f, k). -/
theorem bcastfv_apply (v : Vec Ideal S128x200 .f32) (h : (S128x200 : Shape).ShapeCasts S128x200x1)
    (h' : (S128x200x1 : Shape).Broadcasts S128x200x64) (p : Fin 128) (f : Fin 200) (k : Fin 64) :
    broadcastTo S128x200x64 (shapeCast S128x200x1 v h) h' (ix3 p f k) = v (ix2 p f) := by
  rw [broadcastTo_apply (shapeCast S128x200x1 v h) h' (ix3 p f k) (ix3 p f (0 : Fin 1)) fun a => by
    match a with
    | ⟨0, _⟩ => rfl
    | ⟨1, _⟩ => rfl
    | ⟨2, _⟩ => rfl]
  refine shapeCast_apply v h _ _ ?_
  rw [Shape.rowMajor_val_two, Shape.rowMajor_val_three]
  show p.val * 200 + f.val = (p.val * 200 + f.val) * 1 + 0
  omega

/-! ## The lane reductions at an index -/

/-- The sum along the 200 features of a [128,200] block, at row p. -/
theorem sum_feat (v : FVec Ideal S128x200 .f32) (h : (S128x200 : Shape).Reduces [1] S128) (hφ : FKind.Formats .f32)
    (hacc : (0x00000000#32 : BitVec 32) = 0x00000000#32) (p : Fin 128) :
    multiReduction .add [1] S128 v 0x00000000#32 h hφ hacc (ix1 p) = ∑ f : Fin 200, v (ix2 p f) := by
  refine (Ideal.multiReduction_add_single v 0x00000000#32 h hφ hacc (ix1 p)).trans ?_
  refine Finset.sum_congr rfl fun f _ => congrArg v ?_
  funext a
  apply Fin.ext
  match a with
  | ⟨0, _⟩ => rfl
  | ⟨1, _⟩ => rfl

/-- The sum along the 64 factors of a [128,64] block, at row p. -/
theorem sum_fac (v : FVec Ideal S128x64 .f32) (h : (S128x64 : Shape).Reduces [1] S128) (hφ : FKind.Formats .f32)
    (hacc : (0x00000000#32 : BitVec 32) = 0x00000000#32) (p : Fin 128) :
    multiReduction .add [1] S128 v 0x00000000#32 h hφ hacc (ix1 p) = ∑ k : Fin 64, v (ix2 p k) := by
  refine (Ideal.multiReduction_add_single v 0x00000000#32 h hφ hacc (ix1 p)).trans ?_
  refine Finset.sum_congr rfl fun k _ => congrArg v ?_
  funext a
  apply Fin.ext
  match a with
  | ⟨0, _⟩ => rfl
  | ⟨1, _⟩ => rfl

/-- The sum along the 200 features of a [128,200,64] block, at (p, k). -/
theorem sum3_feat (v : FVec Ideal S128x200x64 .f32) (h : (S128x200x64 : Shape).Reduces [1] S128x64) (hφ : FKind.Formats .f32)
    (hacc : (0x00000000#32 : BitVec 32) = 0x00000000#32) (p : Fin 128) (k : Fin 64) :
    multiReduction .add [1] S128x64 v 0x00000000#32 h hφ hacc (ix2 p k) = ∑ f : Fin 200, v (ix3 p f k) := by
  refine (Ideal.multiReduction_add_single v 0x00000000#32 h hφ hacc (ix2 p k)).trans ?_
  refine Finset.sum_congr rfl fun f _ => congrArg v ?_
  funext a
  apply Fin.ext
  match a with
  | ⟨0, _⟩ => rfl
  | ⟨1, _⟩ => rfl
  | ⟨2, _⟩ => rfl

/-- The sum along the 64 factors of a [128,200,64] block, at (p, f). -/
theorem sum3_fac (v : FVec Ideal S128x200x64 .f32) (h : (S128x200x64 : Shape).Reduces [2] S128x200) (hφ : FKind.Formats .f32)
    (hacc : (0x00000000#32 : BitVec 32) = 0x00000000#32) (p : Fin 128) (f : Fin 200) :
    multiReduction .add [2] S128x200 v 0x00000000#32 h hφ hacc (ix2 p f) = ∑ k : Fin 64, v (ix3 p f k) := by
  refine (Ideal.multiReduction_add_single v 0x00000000#32 h hφ hacc (ix2 p f)).trans ?_
  refine Finset.sum_congr rfl fun k _ => congrArg v ?_
  funext a
  apply Fin.ext
  match a with
  | ⟨0, _⟩ => rfl
  | ⟨1, _⟩ => rfl
  | ⟨2, _⟩ => rfl

/-! ## The payloads at a row -/

/-- A gathered factor entry scaled by its feature value, at (p, f, k). -/
theorem scaled_apply (x0 : Vec Ideal S128x200 .f32) (x2 : FVec Ideal S128x200x64 .f32) (h : (S128x200 : Shape).ShapeCasts S128x200x1)
    (h' : (S128x200x1 : Shape).Broadcasts S128x200x64) (p : Fin 128) (f : Fin 200) (k : Fin 64) :
    mulf x2 (broadcastTo S128x200x64 (shapeCast S128x200x1 x0 h) h') (ix3 p f k) = x2 (ix3 p f k) * x0 (ix2 p f) := by
  rw [mulf_apply, bcastfv_apply]

/-- The pre-activation payload at row p is `preact` of the row's loaded values. -/
theorem pay5_apply (x0 x1 : Vec Ideal S128x200 .f32) (x2 : Vec Ideal S128x200x64 .f32) (x4 : Vec Ideal S1x1 .f32) (p : Fin 128) :
    k0_pay5 x0 x1 x2 x4 (ix2 p (0 : Fin 1))
      = preact (fun f => x1 (ix2 p f)) (fun f => x0 (ix2 p f)) (fun f k => x2 (ix3 p f k)) (x4 (ix2 (0 : Fin 1) (0 : Fin 1))) := by
  unfold k0_pay5 preact
  simp only [shapeCast_self]
  rw [addf_apply, addf_apply, mulf_apply, subf_apply, broadcast_apply, col_apply, col_apply, col_apply, bcast11_apply]
  refine congrArg₂ (· + ·) (congrArg₂ (· + ·) ((sum_feat _ _ _ _ p).trans ?_) rfl) (congrArg₂ (· * ·) rfl (congrArg₂ (· - ·) ((sum_fac _ _ _ _ p).trans ?_) ((sum_feat _ _ _ _ p).trans ?_)))
  · rfl
  · refine Finset.sum_congr rfl fun k _ => ?_
    rw [mulf_apply, sum3_feat]
    simp only [scaled_apply]
  · refine Finset.sum_congr rfl fun f _ => ?_
    rw [sum3_fac]
    refine Finset.sum_congr rfl fun k _ => ?_
    rw [mulf_apply, scaled_apply]

/-! ## The transcendental operations at an index (definitional) -/

theorem exp_apply {s : Shape} (v : FVec Ideal s .f32) (i : s.Idx) : exp v i = Ideal.exp (v i) := rfl
theorem log_apply {s : Shape} (v : FVec Ideal s .f32) (i : s.Idx) : log v i = Ideal.log (v i) := rfl
theorem log1p_apply {s : Shape} (v : FVec Ideal s .f32) (i : s.Idx) : log1p v i = Ideal.log1p (v i) := rfl
theorem absf_apply {s : Shape} (v : FVec Ideal s .f32) (i : s.Idx) : absf v i = max (v i) (-(v i)) := rfl
theorem cmpf_apply' {s : Shape} (q : CmpFPredicate) (a b : FVec Ideal s .f32) (i : s.Idx) :
    cmpf q a b i = Ideal.cmp q (a i) (b i) := rfl

theorem hz2 : (![0, 0] : Fin 2 → Nat) = fun _ => 0 := funext fun a => by fin_cases a <;> rfl
theorem hz3 : (![0, 0, 0] : Fin 3 → Nat) = fun _ => 0 := funext fun a => by fin_cases a <;> rfl

/-- The probability payload at row p, over the pre-activation payload there. -/
theorem pay1_apply (x0 x1 : Vec Ideal S128x200 .f32) (x2 : Vec Ideal S128x200x64 .f32) (x3 : Vec Ideal S128x1 .f32)
    (x4 x5 : Vec Ideal S1x1 .f32) (p : Fin 128) :
    k0_pay1 (k0_pay3 x3) (k0_pay4 x5) (k0_pay6 x0 x1 x2 x4) (k0_pay8 x0 x1 x2 x4) (k0_pay9 x0 x1 x2 x4) (k0_pay10 x0 x1 x2 x4)
        (ix2 p (0 : Fin 1))
      = probK (k0_pay5 x0 x1 x2 x4 (ix2 p (0 : Fin 1))) (x3 (ix2 p (0 : Fin 1))) (x5 (ix2 (0 : Fin 1) (0 : Fin 1))) := by
  unfold k0_pay1 k0_pay3 k0_pay4 k0_pay6 k0_pay8 k0_pay9 k0_pay10 k0_pay7 probK spK
  simp only [shapeCast_self, divf_apply, addf_apply, subf_apply, mulf_apply, maximumf_apply, broadcast_apply, select_apply,
    exp_apply, log_apply, log1p_apply, absf_apply, cmpf_apply', bcast11_apply]
  rfl

/-- The decision payload at row p is the decision on the probability payload there. -/
theorem pay2_apply (x0 x1 : Vec Ideal S128x200 .f32) (x2 : Vec Ideal S128x200x64 .f32) (x3 : Vec Ideal S128x1 .f32)
    (x4 x5 : Vec Ideal S1x1 .f32) (p : Fin 128) :
    k0_pay2 (k0_pay3 x3) (k0_pay4 x5) (k0_pay6 x0 x1 x2 x4) (k0_pay8 x0 x1 x2 x4) (k0_pay9 x0 x1 x2 x4) (k0_pay10 x0 x1 x2 x4)
        (ix2 p (0 : Fin 1))
      = binOf (probK (k0_pay5 x0 x1 x2 x4 (ix2 p (0 : Fin 1))) (x3 (ix2 p (0 : Fin 1))) (x5 (ix2 (0 : Fin 1) (0 : Fin 1)))) := by
  unfold k0_pay2 binOf
  rw [select_apply, cmpf_apply', broadcast_apply, broadcast_apply, broadcast_apply, pay1_apply]
  rfl

/-! ## What a point leaves in the two output blocks, at a row -/

/-- The row's data as the specification takes it, from the point's six input blocks. -/
abbrev rowPre (x0 x1 : Vec Ideal S128x200 .f32) (x2 : Vec Ideal S128x200x64 .f32) (x4 : Vec Ideal S1x1 .f32) (p : Fin 128) : EReal :=
  preact (fun f => x1 (ix2 p f)) (fun f => x0 (ix2 p f)) (fun f k => x2 (ix3 p f k)) (x4 (ix2 (0 : Fin 1) (0 : Fin 1)))

/-- The probability block at row p. -/
theorem out6_apply (x0 x1 : Vec Ideal S128x200 .f32) (x2 : Vec Ideal S128x200x64 .f32) (x3 : Vec Ideal S128x1 .f32)
    (x4 x5 : Vec Ideal S1x1 .f32) (p : Fin 128) :
    out0_6 x0 x1 x2 x3 x4 x5 (ix2 p (0 : Fin 1))
      = probK (rowPre x0 x1 x2 x4 p) (x3 (ix2 p (0 : Fin 1))) (x5 (ix2 (0 : Fin 1) (0 : Fin 1))) := by
  unfold out0_6
  rw [View.canon_unit_zero hz2]
  simp only [View.ld_unit_zero (S := S128x200) hz2, View.ld_unit_zero (S := S128x200x64) hz3,
    View.ld_unit_zero (S := S128x1) hz2, View.ld_unit_zero (S := S1x1) hz2]
  rw [pay1_apply, pay5_apply]

/-- The decision block at row p. -/
theorem out7_apply (x0 x1 : Vec Ideal S128x200 .f32) (x2 : Vec Ideal S128x200x64 .f32) (x3 : Vec Ideal S128x1 .f32)
    (x4 x5 : Vec Ideal S1x1 .f32) (p : Fin 128) :
    out0_7 x0 x1 x2 x3 x4 x5 (ix2 p (0 : Fin 1))
      = binOf (probK (rowPre x0 x1 x2 x4 p) (x3 (ix2 p (0 : Fin 1))) (x5 (ix2 (0 : Fin 1) (0 : Fin 1)))) := by
  unfold out0_7
  rw [View.canon_unit_zero hz2]
  simp only [View.ld_unit_zero (S := S128x200) hz2, View.ld_unit_zero (S := S128x200x64) hz3,
    View.ld_unit_zero (S := S128x1) hz2, View.ld_unit_zero (S := S1x1) hz2]
  rw [pay2_apply, pay5_apply]

end Cert.Surv.K

end
-- ==== Proof.KBlocks.lean ====
/-
  From blocks to arrays. Point t of the grid works on rows 128·t … 128·t + 127: its input blocks are those rows of the
  arrays the region finds, and what it writes back is those rows of ONE function of the arrays (the specification's
  probability, and the decision on it). The 32 blocks tile the 4096 rows, so the two result arrays end holding that
  function; the host's closing reshapes then drop the unit column.
-/
import proofs.«403920_j51737176047793_1_alg».proof.Proof.Gen.KernelIdeal.Frame
import proofs.«403920_j51737176047793_1_alg».proof.Proof.Spec
import proofs.«403920_j51737176047793_1_alg».proof.Proof.KBody
import Idealize.ShloMosaic.Lib.Pipeline.Value
import Idealize.ShloMosaic.Lib.ValueIdx
import Idealize.ShloMosaic.Lib.StableHlo.Run
import Idealize.ShloMosaic.Lib.Tactic

set_option maxRecDepth 16384

noncomputable section

namespace Cert.Surv.K

open Idealize.ShloMosaic Idealize.ShloMosaic.TcCoe Idealize.ShloMosaic.ValueIdx Idealize.SL.Sem Idealize.ShloMosaic.StableHlo
open Idealize.ShloMosaic.Pipeline (Dat)
open Cert.KernelIdeal Cert.KernelIdeal.Gen Cert.Surv

variable (m : (ℓ : Loc nD τ sig) → Buf (Elt Ideal) ℓ) (ρ : Dev nD → PrngReg)

/-! ## The arrays the region finds and a point's blocks, at their literal types -/

abbrev aFv (c : Dev nD) : FVec Ideal S4096x200 .f32 := V m c (Pipeline.arrRef spec0 0)
abbrev aLin (c : Dev nD) : FVec Ideal S4096x200 .f32 := V m c (Pipeline.arrRef spec0 1)
abbrev aFac (c : Dev nD) : FVec Ideal S4096x200x64 .f32 := V m c (Pipeline.arrRef spec0 2)
abbrev aPrice (c : Dev nD) : FVec Ideal S4096x1 .f32 := V m c (Pipeline.arrRef spec0 3)
abbrev aIcpt (c : Dev nD) : FVec Ideal S1x1 .f32 := V m c (Pipeline.arrRef spec0 4)
abbrev aShape (c : Dev nD) : FVec Ideal S1x1 .f32 := V m c (Pipeline.arrRef spec0 5)

abbrev bFv (c : Dev nD) (t : Fin cfg0.N) : Vec Ideal S128x200 .f32 := iblk m c 0 t
abbrev bLin (c : Dev nD) (t : Fin cfg0.N) : Vec Ideal S128x200 .f32 := iblk m c 1 t
abbrev bFac (c : Dev nD) (t : Fin cfg0.N) : Vec Ideal S128x200x64 .f32 := iblk m c 2 t
abbrev bPrice (c : Dev nD) (t : Fin cfg0.N) : Vec Ideal S128x1 .f32 := iblk m c 3 t
abbrev bIcpt (c : Dev nD) (t : Fin cfg0.N) : Vec Ideal S1x1 .f32 := iblk m c 4 t
abbrev bShape (c : Dev nD) (t : Fin cfg0.N) : Vec Ideal S1x1 .f32 := iblk m c 5 t

/-- The printed index maps over the grid: the row windows sit at block t, the two scalar windows at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 3) = t.val ∧ win0_2.index t (1 : Fin 3) = 0 ∧ win0_2.index t (2 : Fin 3) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- Row p of point t's block is row 128·t + p of the array. -/
def row (t : Fin cfg0.N) (p : Fin 128) : Fin 4096 :=
  ⟨128 * t.val + p.val, by have h : t.val < 32 := lt_of_lt_of_eq t.isLt N_0; have := p.isLt; omega⟩

/-! ## Where a block's index lands in its array -/

theorem emb0 (t : Fin cfg0.N) (p : Fin 128) (f : Fin 200) :
    ((cfg0.win 0).blk t).view.emb (ix2 p f) = ix2 (row t p) f := by
  obtain ⟨e0, e1, -⟩ := idx_facts t
  funext a
  apply Fin.ext
  match a with
  | ⟨0, _⟩ => show win0_0.index t (0 : Fin 2) * 128 + 1 * p.val = 128 * t.val + p.val; rw [e0]; omega
  | ⟨1, _⟩ => show win0_0.index t (1 : Fin 2) * 200 + 1 * f.val = f.val; rw [e1]; omega

theorem emb1 (t : Fin cfg0.N) (p : Fin 128) (f : Fin 200) :
    ((cfg0.win 1).blk t).view.emb (ix2 p f) = ix2 (row t p) f := by
  obtain ⟨-, -, e0, e1, -⟩ := idx_facts t
  funext a
  apply Fin.ext
  match a with
  | ⟨0, _⟩ => show win0_1.index t (0 : Fin 2) * 128 + 1 * p.val = 128 * t.val + p.val; rw [e0]; omega
  | ⟨1, _⟩ => show win0_1.index t (1 : Fin 2) * 200 + 1 * f.val = f.val; rw [e1]; omega

theorem emb2 (t : Fin cfg0.N) (p : Fin 128) (f : Fin 200) (k : Fin 64) :
    ((cfg0.win 2).blk t).view.emb (ix3 p f k) = ix3 (row t p) f k := by
  obtain ⟨-, -, -, -, e0, e1, e2, -⟩ := idx_facts t
  funext a
  apply Fin.ext
  match a with
  | ⟨0, _⟩ => show win0_2.index t (0 : Fin 3) * 128 + 1 * p.val = 128 * t.val + p.val; rw [e0]; omega
  | ⟨1, _⟩ => show win0_2.index t (1 : Fin 3) * 200 + 1 * f.val = f.val; rw [e1]; omega
  | ⟨2, _⟩ => show win0_2.index t (2 : Fin 3) * 64 + 1 * k.val = k.val; rw [e2]; omega

theorem emb3 (t : Fin cfg0.N) (p : Fin 128) :
    ((cfg0.win 3).blk t).view.emb (ix2 p (0 : Fin 1)) = ix2 (row t p) (0 : Fin 1) := by
  obtain ⟨-, -, -, -, -, -, -, e0, e1, -⟩ := idx_facts t
  funext a
  apply Fin.ext
  match a with
  | ⟨0, _⟩ => show win0_3.index t (0 : Fin 2) * 128 + 1 * p.val = 128 * t.val + p.val; rw [e0]; omega
  | ⟨1, _⟩ => show win0_3.index t (1 : Fin 2) * 1 + 1 * 0 = 0; rw [e1]

theorem emb4 (t : Fin cfg0.N) :
    ((cfg0.win 4).blk t).view.emb (ix2 (0 : Fin 1) (0 : Fin 1)) = ix2 (0 : Fin 1) (0 : Fin 1) := by
  obtain ⟨-, -, -, -, -, -, -, -, -, e0, e1, -⟩ := idx_facts t
  funext a
  apply Fin.ext
  match a with
  | ⟨0, _⟩ => show win0_4.index t (0 : Fin 2) * 1 + 1 * 0 = 0; rw [e0]
  | ⟨1, _⟩ => show win0_4.index t (1 : Fin 2) * 1 + 1 * 0 = 0; rw [e1]

theorem emb5 (t : Fin cfg0.N) :
    ((cfg0.win 5).blk t).view.emb (ix2 (0 : Fin 1) (0 : Fin 1)) = ix2 (0 : Fin 1) (0 : Fin 1) := by
  obtain ⟨-, -, -, -, -, -, -, -, -, -, -, e0, e1, -⟩ := idx_facts t
  funext a
  apply Fin.ext
  match a with
  | ⟨0, _⟩ => show win0_5.index t (0 : Fin 2) * 1 + 1 * 0 = 0; rw [e0]
  | ⟨1, _⟩ => show win0_5.index t (1 : Fin 2) * 1 + 1 * 0 = 0; rw [e1]

theorem emb6 (t : Fin cfg0.N) (p : Fin 128) :
    ((cfg0.win 6).blk t).view.emb (ix2 p (0 : Fin 1)) = ix2 (row t p) (0 : Fin 1) := by
  obtain ⟨-, -, -, -, -, -, -, -, -, -, -, -, -, e0, e1, -⟩ := idx_facts t
  funext a
  apply Fin.ext
  match a with
  | ⟨0, _⟩ => show win0_6.index t (0 : Fin 2) * 128 + 1 * p.val = 128 * t.val + p.val; rw [e0]; omega
  | ⟨1, _⟩ => show win0_6.index t (1 : Fin 2) * 1 + 1 * 0 = 0; rw [e1]

theorem emb7 (t : Fin cfg0.N) (p : Fin 128) :
    ((cfg0.win 7).blk t).view.emb (ix2 p (0 : Fin 1)) = ix2 (row t p) (0 : Fin 1) := by
  obtain ⟨-, -, -, -, -, -, -, -, -, -, -, -, -, -, -, e0, e1⟩ := idx_facts t
  funext a
  apply Fin.ext
  match a with
  | ⟨0, _⟩ => show win0_7.index t (0 : Fin 2) * 128 + 1 * p.val = 128 * t.val + p.val; rw [e0]; omega
  | ⟨1, _⟩ => show win0_7.index t (1 : Fin 2) * 1 + 1 * 0 = 0; rw [e1]

/-! ## A point's blocks are rows of the arrays -/

theorem bFv_apply (c : Dev nD) (t : Fin cfg0.N) (p : Fin 128) (f : Fin 200) :
    bFv m c t (ix2 p f) = aFv m c (ix2 (row t p) f) := by
  unfold bFv iblk
  rw [View.read_apply, emb0]
  exact cast_eq _ _

theorem bLin_apply (c : Dev nD) (t : Fin cfg0.N) (p : Fin 128) (f : Fin 200) :
    bLin m c t (ix2 p f) = aLin m c (ix2 (row t p) f) := by
  unfold bLin iblk
  rw [View.read_apply, emb1]
  exact cast_eq _ _

theorem bFac_apply (c : Dev nD) (t : Fin cfg0.N) (p : Fin 128) (f : Fin 200) (k : Fin 64) :
    bFac m c t (ix3 p f k) = aFac m c (ix3 (row t p) f k) := by
  unfold bFac iblk
  rw [View.read_apply, emb2]
  exact cast_eq _ _

theorem bPrice_apply (c : Dev nD) (t : Fin cfg0.N) (p : Fin 128) :
    bPrice m c t (ix2 p (0 : Fin 1)) = aPrice m c (ix2 (row t p) (0 : Fin 1)) := by
  unfold bPrice iblk
  rw [View.read_apply, emb3]
  exact cast_eq _ _

theorem bIcpt_apply (c : Dev nD) (t : Fin cfg0.N) :
    bIcpt m c t (ix2 (0 : Fin 1) (0 : Fin 1)) = aIcpt m c (ix2 (0 : Fin 1) (0 : Fin 1)) := by
  unfold bIcpt iblk
  rw [View.read_apply, emb4]
  exact cast_eq _ _

theorem bShape_apply (c : Dev nD) (t : Fin cfg0.N) :
    bShape m c t (ix2 (0 : Fin 1) (0 : Fin 1)) = aShape m c (ix2 (0 : Fin 1) (0 : Fin 1)) := by
  unfold bShape iblk
  rw [View.read_apply, emb5]
  exact cast_eq _ _

/-! ## The whole-array functions -/

/-- The probability column as one function of the arrays the region finds. -/
def colProb (fv lin : FVec Ideal S4096x200 .f32) (fac : FVec Ideal S4096x200x64 .f32) (price : FVec Ideal S4096x1 .f32)
    (icpt shape : FVec Ideal S1x1 .f32) : FVec Ideal S4096x1 .f32 := fun i =>
  probK (preact (fun f => lin (ix2 (i 0) f)) (fun f => fv (ix2 (i 0) f)) (fun f k => fac (ix3 (i 0) f k))
      (icpt (ix2 (0 : Fin 1) (0 : Fin 1)))) (price (ix2 (i 0) (0 : Fin 1))) (shape (ix2 (0 : Fin 1) (0 : Fin 1)))

/-- The decision column likewise. -/
def colBin (fv lin : FVec Ideal S4096x200 .f32) (fac : FVec Ideal S4096x200x64 .f32) (price : FVec Ideal S4096x1 .f32)
    (icpt shape : FVec Ideal S1x1 .f32) : FVec Ideal S4096x1 .f32 := fun i =>
  binOf (colProb fv lin fac price icpt shape i)

/-- The two columns of the arrays the region finds. -/
abbrev gProb (c : Dev nD) : FVec Ideal S4096x1 .f32 :=
  colProb (aFv m c) (aLin m c) (aFac m c) (aPrice m c) (aIcpt m c) (aShape m c)
abbrev gBin (c : Dev nD) : FVec Ideal S4096x1 .f32 :=
  colBin (aFv m c) (aLin m c) (aFac m c) (aPrice m c) (aIcpt m c) (aShape m c)

/-- The row's pre-activation from the point's blocks is the one from the arrays, at row 128·t + p. -/
theorem rowPre_eq (c : Dev nD) (t : Fin cfg0.N) (p : Fin 128) :
    rowPre (bFv m c t) (bLin m c t) (bFac m c t) (bIcpt m c t) p
      = preact (fun f => aLin m c (ix2 (row t p) f)) (fun f => aFv m c (ix2 (row t p) f))
          (fun f k => aFac m c (ix3 (row t p) f k)) (aIcpt m c (ix2 (0 : Fin 1) (0 : Fin 1))) := by
  have h1 : (fun f => bLin m c t (ix2 p f)) = fun f => aLin m c (ix2 (row t p) f) := funext fun f => bLin_apply m c t p f
  have h2 : (fun f => bFv m c t (ix2 p f)) = fun f => aFv m c (ix2 (row t p) f) := funext fun f => bFv_apply m c t p f
  have h3 : (fun f k => bFac m c t (ix3 p f k)) = fun f k => aFac m c (ix3 (row t p) f k) :=
    funext fun f => funext fun k => bFac_apply m c t p f k
  show preact (fun f => bLin m c t (ix2 p f)) (fun f => bFv m c t (ix2 p f)) (fun f k => bFac m c t (ix3 p f k))
    (bIcpt m c t (ix2 (0 : Fin 1) (0 : Fin 1))) = _
  rw [h1, h2, h3, bIcpt_apply]

/-- What point t leaves in the probability block, at row p: the column's value at row 128·t + p. -/
theorem out6_row (c : Dev nD) (t : Fin cfg0.N) (p : Fin 128) :
    out0_6 (bFv m c t) (bLin m c t) (bFac m c t) (bPrice m c t) (bIcpt m c t) (bShape m c t) (ix2 p (0 : Fin 1))
      = gProb m c (ix2 (row t p) (0 : Fin 1)) := by
  rw [out6_apply, rowPre_eq, bPrice_apply, bShape_apply]
  rfl

/-- What point t leaves in the decision block, at row p. -/
theorem out7_row (c : Dev nD) (t : Fin cfg0.N) (p : Fin 128) :
    out0_7 (bFv m c t) (bLin m c t) (bFac m c t) (bPrice m c t) (bIcpt m c t) (bShape m c t) (ix2 p (0 : Fin 1))
      = gBin m c (ix2 (row t p) (0 : Fin 1)) := by
  rw [out7_apply, rowPre_eq, bPrice_apply, bShape_apply]
  rfl

/-! ## What a point writes back, the cover, and the arrays after the run -/

/-- A [128,1] block index is (p, 0). -/
theorem col_idx (j : S128x1.Idx) : j = ix2 (j 0) (0 : Fin 1) := by
  funext a
  match a with
  | ⟨0, _⟩ => rfl
  | ⟨1, _⟩ => exact Fin.ext (by have h : (j 1).val < 1 := (j 1).isLt; show (j 1).val = 0; omega)

/-- Block t of the probability column is what point t leaves in the probability block. -/
theorem blk6_read (c : Dev nD) (t : Fin cfg0.N) (y : S128x1.Idx) :
    ((cfg0.win 6).blk t).view.read (Elt Ideal) (gProb m c) y
      = out0_6 (bFv m c t) (bLin m c t) (bFac m c t) (bPrice m c t) (bIcpt m c t) (bShape m c t) y := by
  obtain ⟨p, rfl⟩ : ∃ p : Fin 128, y = ix2 p (0 : Fin 1) := ⟨y 0, col_idx y⟩
  rw [View.read_apply, emb6, out6_row]
  exact cast_eq _ _

/-- Block t of the decision column is what point t leaves in the decision block. -/
theorem blk7_read (c : Dev nD) (t : Fin cfg0.N) (y : S128x1.Idx) :
    ((cfg0.win 7).blk t).view.read (Elt Ideal) (gBin m c) y
      = out0_7 (bFv m c t) (bLin m c t) (bFac m c t) (bPrice m c t) (bIcpt m c t) (bShape m c t) y := by
  obtain ⟨p, rfl⟩ : ∃ p : Fin 128, y = ix2 p (0 : Fin 1) := ⟨y 0, col_idx y⟩
  rw [View.read_apply, emb7, out7_row]
  exact cast_eq _ _

/-- Point t writes back block t of the probability column. -/
theorem flushed6_eq (c : Dev nD) (t : Fin cfg0.N) :
    (dats m 0 c).flushed 6 t = ((cfg0.win 6).blk t).view.read (Elt Ideal) (gProb m c) := by
  show (cfg0.win 6).cut (grid0.coords t) ((dats m 0 c).after 6 t) = _
  rw [after0_6]
  funext j
  exact (blk6_read m c t j).symm

/-- Point t writes back block t of the decision column. -/
theorem flushed7_eq (c : Dev nD) (t : Fin cfg0.N) :
    (dats m 0 c).flushed 7 t = ((cfg0.win 7).blk t).view.read (Elt Ideal) (gBin m c) := by
  show (cfg0.win 7).cut (grid0.coords t) ((dats m 0 c).after 7 t) = _
  rw [after0_7]
  funext j
  exact (blk7_read m c t j).symm

/-- An index of the probability array is in point t's block iff its row is among the block's 128. -/
theorem mem_blk6 (t : Fin cfg0.N) (i : S4096x1.Idx) :
    i ∈ ((cfg0.win 6).blk t).view.set ↔ ∀ a : Fin 2, win0_6.index t a * S128x1.size a ≤ (i a).val ∧ (i a).val < win0_6.index t a * S128x1.size a + S128x1.size a := by
  show i ∈ ((View.whole main_v5_0).slice (win0_6.rect t)).set ↔ _
  rw [View.set_slice_whole, Rect.mem_set_unit]
  exact Iff.rfl

theorem mem_blk7 (t : Fin cfg0.N) (i : S4096x1.Idx) :
    i ∈ ((cfg0.win 7).blk t).view.set ↔ ∀ a : Fin 2, win0_7.index t a * S128x1.size a ≤ (i a).val ∧ (i a).val < win0_7.index t a * S128x1.size a + S128x1.size a := by
  show i ∈ ((View.whole main_v5_1).slice (win0_7.rect t)).set ↔ _
  rw [View.set_slice_whole, Rect.mem_set_unit]
  exact Iff.rfl

/-- The point whose block holds row r. -/
def ptOf (r : Fin 4096) : Fin cfg0.N := ⟨r.val / 128, by rw [show cfg0.N = 32 from N_0]; have := r.isLt; omega⟩

/-- Every row of the probability array is in some point's block: the 32 blocks tile the 4096 rows. -/
theorem cover6 (i : S4096x1.Idx) : ∃ t : Fin cfg0.N, (cfg0.win 6).flush t = true ∧ i ∈ ((cfg0.win 6).blk t).view.set := by
  have hi0 : (i 0).val < 4096 := (i 0).isLt
  have hi1 : (i 1).val < 1 := (i 1).isLt
  obtain ⟨-, -, -, -, -, -, -, -, -, -, -, -, -, e0, e1, -⟩ := idx_facts (ptOf (i 0))
  refine ⟨ptOf (i 0), flush0_6 _, ?_⟩
  rw [mem_blk6]
  intro a
  match a with
  | ⟨0, _⟩ =>
    show win0_6.index (ptOf (i 0)) (0 : Fin 2) * 128 ≤ (i 0).val ∧ (i 0).val < win0_6.index (ptOf (i 0)) (0 : Fin 2) * 128 + 128
    rw [e0]; show (i 0).val / 128 * 128 ≤ (i 0).val ∧ (i 0).val < (i 0).val / 128 * 128 + 128; omega
  | ⟨1, _⟩ =>
    show win0_6.index (ptOf (i 0)) (1 : Fin 2) * 1 ≤ (i 1).val ∧ (i 1).val < win0_6.index (ptOf (i 0)) (1 : Fin 2) * 1 + 1
    rw [e1]; omega

theorem cover7 (i : S4096x1.Idx) : ∃ t : Fin cfg0.N, (cfg0.win 7).flush t = true ∧ i ∈ ((cfg0.win 7).blk t).view.set := by
  have hi0 : (i 0).val < 4096 := (i 0).isLt
  have hi1 : (i 1).val < 1 := (i 1).isLt
  obtain ⟨-, -, -, -, -, -, -, -, -, -, -, -, -, -, -, e0, e1⟩ := idx_facts (ptOf (i 0))
  refine ⟨ptOf (i 0), flush0_7 _, ?_⟩
  rw [mem_blk7]
  intro a
  match a with
  | ⟨0, _⟩ =>
    show win0_7.index (ptOf (i 0)) (0 : Fin 2) * 128 ≤ (i 0).val ∧ (i 0).val < win0_7.index (ptOf (i 0)) (0 : Fin 2) * 128 + 128
    rw [e0]; show (i 0).val / 128 * 128 ≤ (i 0).val ∧ (i 0).val < (i 0).val / 128 * 128 + 128; omega
  | ⟨1, _⟩ =>
    show win0_7.index (ptOf (i 0)) (1 : Fin 2) * 1 ≤ (i 1).val ∧ (i 1).val < win0_7.index (ptOf (i 0)) (1 : Fin 2) * 1 + 1
    rw [e1]; omega

/-- After the run the probability array holds the probability column … -/
theorem final6 (c : Dev nD) : (dats m 0 c).arrAt 6 cfg0.N = gProb m c :=
  (dats m 0 c).arrAt_eq_of_cover 6 (gProb m c) (fun t _ => flushed6_eq m c t) cover6

/-- … and the decision array the decision column. -/
theorem final7 (c : Dev nD) : (dats m 0 c).arrAt 7 cfg0.N = gBin m c :=
  (dats m 0 c).arrAt_eq_of_cover 7 (gBin m c) (fun t _ => flushed7_eq m c t) cover7

end Cert.Surv.K

end
-- ==== Proof.KTail.lean ====
/-
  The host lines after the region: two reshapes that drop the unit column of the two result arrays. Row b of each
  result is row b of the array the region left.
-/
import proofs.«403920_j51737176047793_1_alg».proof.Proof.Gen.KernelIdeal.Frame
import Idealize.ShloMosaic.Lib.Pipeline.Value
import Idealize.ShloMosaic.Lib.ValueIdx
import Idealize.ShloMosaic.Lib.StableHlo.Run

set_option maxRecDepth 16384

noncomputable section

namespace Cert.Surv.K

open Idealize.ShloMosaic Idealize.ShloMosaic.TcCoe Idealize.ShloMosaic.ValueIdx Idealize.SL.Sem Idealize.ShloMosaic.StableHlo
open Idealize.ShloMosaic.Pipeline (Dat)
open Cert.KernelIdeal Cert.KernelIdeal.Gen

variable (m : (ℓ : Loc nD τ sig) → Buf (Elt Ideal) ℓ)

/-- The first result at row b is the probability array's row b. -/
theorem tail6 (c : Dev nD) (b : Fin 4096) :
    (Pipeline.afterTail₀ cfgs (dats m) 0 (V0 m) [hostOps1] c main_v6 : S4096.Idx → EReal) (ix1 b)
      = ((dats m 0 c).arrAt 6 cfg0.N : S4096x1.Idx → EReal) (ix2 b (0 : Fin 1)) := by
  unfold Pipeline.afterTail₀
  simp only [hostOps1, List.flatten_cons, List.flatten_nil, List.append_nil, List.cons_append, List.nil_append]
  after_results
  show shapeCast S4096 (Pipeline.withArrays (cfgs 0).spec c (V0 m c) (fun w => (dats m 0 c).arrAt w (cfgs 0).N)
    (Proc.devRef .tc main_v5_0)) shapeCasts_S4096x1_S4096 (ix1 b) = _
  have key := Pipeline.withArrays_arr spec0 launch0.win.arr_inj c (V0 m c) (fun w => (dats m 0 c).arrAt w cfg0.N) 6
  refine (shapeCast_apply _ _ _ (ix2 b (0 : Fin 1)) ?_).trans (congrFun key (ix2 b (0 : Fin 1)))
  rw [Shape.rowMajor_val_one, Shape.rowMajor_val_two]
  simp

/-- The second result at row b is the decision array's row b. -/
theorem tail7 (c : Dev nD) (b : Fin 4096) :
    (Pipeline.afterTail₀ cfgs (dats m) 0 (V0 m) [hostOps1] c main_v7 : S4096.Idx → EReal) (ix1 b)
      = ((dats m 0 c).arrAt 7 cfg0.N : S4096x1.Idx → EReal) (ix2 b (0 : Fin 1)) := by
  unfold Pipeline.afterTail₀
  simp only [hostOps1, List.flatten_cons, List.flatten_nil, List.append_nil, List.cons_append, List.nil_append]
  after_results
  show shapeCast S4096 (Pipeline.withArrays (cfgs 0).spec c (V0 m c) (fun w => (dats m 0 c).arrAt w (cfgs 0).N)
    (Proc.devRef .tc main_v5_1)) shapeCasts_S4096x1_S4096 (ix1 b) = _
  have key := Pipeline.withArrays_arr spec0 launch0.win.arr_inj c (V0 m c) (fun w => (dats m 0 c).arrAt w cfg0.N) 7
  refine (shapeCast_apply _ _ _ (ix2 b (0 : Fin 1)) ?_).trans (congrFun key (ix2 b (0 : Fin 1)))
  rw [Shape.rowMajor_val_one, Shape.rowMajor_val_two]
  simp

end Cert.Surv.K

end
-- ==== Proof.KRun.lean ====
/-
  The kernel program's run, read: every weakly fair execution ends with the first result holding, at row b, the
  probability column's row b of the arrays the region found, the second result the decision column's, and the seven
  arguments as launched.
-/
import proofs.«403920_j51737176047793_1_alg».proof.Proof.Gen.KernelIdeal.Frame
import proofs.«403920_j51737176047793_1_alg».proof.Proof.Spec
import proofs.«403920_j51737176047793_1_alg».proof.Proof.KBlocks
import proofs.«403920_j51737176047793_1_alg».proof.Proof.KTail
import Idealize.ShloMosaic.Lib.Pipeline.Value
import Idealize.ShloMosaic.Lib.ValueIdx

set_option maxRecDepth 16384

noncomputable section

namespace Cert.Surv.K

open Idealize.ShloMosaic Idealize.ShloMosaic.TcCoe Idealize.ShloMosaic.ValueIdx Idealize.SL.Sem Idealize.ShloMosaic.StableHlo
open Idealize.ShloMosaic.Pipeline (Dat)
open Cert.KernelIdeal Cert.KernelIdeal.Gen Cert.Surv

variable (m : (ℓ : Loc nD τ sig) → Buf (Elt Ideal) ℓ) (ρ : Dev nD → PrngReg)

/-- The first result as a function of its row. -/
theorem res6 (c : Dev nD) :
    (Pipeline.afterTail₀ cfgs (dats m) 0 (V0 m) [hostOps1] c main_v6 : S4096.Idx → EReal)
      = fun i => gProb m c (ix2 (i 0) (0 : Fin 1)) := by
  funext i
  obtain ⟨b, rfl⟩ : ∃ b : Fin 4096, i = ix1 b := ⟨i 0, eq_ix1 i⟩
  rw [tail6, final6]
  rfl

/-- The second result as a function of its row. -/
theorem res7 (c : Dev nD) :
    (Pipeline.afterTail₀ cfgs (dats m) 0 (V0 m) [hostOps1] c main_v7 : S4096.Idx → EReal)
      = fun i => gBin m c (ix2 (i 0) (0 : Fin 1)) := by
  funext i
  obtain ⟨b, rfl⟩ : ∃ b : Fin 4096, i = ix1 b := ⟨i 0, eq_ix1 i⟩
  rw [tail7, final7]
  rfl

/-- The run: both results named, the arguments unchanged. -/
theorem run : θ_run defs (onTc (τ := τ) (main (F := Ideal))) ⟨m, fun _ => 0, ρ⟩ (fun r => ∀ c : Dev nD,
      r.2.mem ((c.tc : Thread nD τ).loc main_v6) = (fun i : S4096.Idx => gProb m c (ix2 (i 0) (0 : Fin 1)))
      ∧ r.2.mem ((c.tc : Thread nD τ).loc main_v7) = (fun i : S4096.Idx => gBin m c (ix2 (i 0) (0 : Fin 1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v6 (Pipeline.mem_restRefs_of main_v6 (by decide) (by decide))).trans (res6 m c),
      ((h c).2 main_v7 (Pipeline.mem_restRefs_of main_v7 (by decide) (by decide))).trans (res7 m c),
      (((h c).2 main_arg0 (Pipeline.mem_restRefs_of main_arg0 (by decide) (by decide))).trans (W_main_arg0 m (dats m) c)),
      ((h c).1 0).trans ((((dats m) 0 c).arrAt_in 0 rfl _).trans ((A_eq m c 0).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c))⟩)
    (run_main m ρ)

end Cert.Surv.K

end
-- ==== Proof.RefValue.lean ====
/-
  The reference's two results at a row, as the specification's functions of the row's gathered weights, feature values,
  price, intercept and shape: its sums over one axis are read off the generated read lemmas; its one sum over the two
  axes (features, factors) at once is the iterated sum.
-/
import proofs.«403920_j51737176047793_1_alg».proof.Proof.Gen.ReferenceIdeal.Read
import proofs.«403920_j51737176047793_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.Surv.R

open Idealize.ShloMosaic Idealize.ShloMosaic.ValueIdx Cert.ReferenceIdeal Cert.ReferenceIdeal.Gen Cert.ReferenceIdeal.Read Cert.Surv

/-! ### The generated index functions at a row, as indices built from coordinates -/

theorem idx8 (b : Fin 4096) (k : Fin 200) : idx_main_v8 (ix1 b) k = ix2 b k :=
  funext fun a => Fin.ext (by match a with | ⟨0, _⟩ => rfl | ⟨1, _⟩ => rfl)

theorem idx21 (b : Fin 4096) (k : Fin 64) (f : Fin 200) : idx_main_v21 (ix2 b k) f = ix3 b f k :=
  funext fun a => Fin.ext (by match a with | ⟨0, _⟩ => rfl | ⟨1, _⟩ => rfl | ⟨2, _⟩ => rfl)

theorem idx23 (b : Fin 4096) (k : Fin 64) : idx_main_v23 (ix1 b) k = ix2 b k :=
  funext fun a => Fin.ext (by match a with | ⟨0, _⟩ => rfl | ⟨1, _⟩ => rfl)

theorem idx1819 (b : Fin 4096) (f : Fin 200) (k : Fin 64) : idx_main_v18 (idx_main_v19 (ix3 b f k)) = ix2 b f :=
  funext fun a => Fin.ext (by match a with | ⟨0, _⟩ => rfl | ⟨1, _⟩ => rfl)

/-! ### The sum over the two axes (features, factors) at once is the iterated sum -/

/-- Dropping the two summed axes of a rank-3 index leaves its first coordinate. -/
theorem drop_eq_iff (h : S4096x200x64.ReducesTo [1, 2] S4096) (i : S4096x200x64.Idx) (b : Fin 4096) :
    h.drop i = ix1 b ↔ i 0 = b := by
  have e0 : ∀ d : Fin S4096.rank, (h.drop i d).val = (i 0).val := fun d => by
    match d with | ⟨0, _⟩ => rfl
  constructor
  · intro e
    exact Fin.ext ((e0 ⟨0, by decide⟩).symm.trans (congrArg (fun g : S4096.Idx => (g ⟨0, by decide⟩).val) e))
  · intro e
    funext d
    refine Fin.ext ((e0 d).trans ?_)
    rw [e]
    match d with | ⟨0, _⟩ => rfl

/-- The indices of the block that reduce to row b are the pairs (feature, factor) at that row. -/
theorem sum_fiber (h : S4096x200x64.ReducesTo [1, 2] S4096) (y : S4096x200x64.Idx → EReal) (b : Fin 4096)
    [DecidablePred fun i : S4096x200x64.Idx => h.drop i = ix1 b] :
    ∑ i ∈ Finset.univ.filter (fun i => h.drop i = ix1 b), y i = ∑ f : Fin 200, ∑ k : Fin 64, y (ix3 b f k) := by
  rw [← Finset.sum_product' Finset.univ Finset.univ (fun f k => y (ix3 b f k))]
  refine Finset.sum_bij' (fun i _ => (i 1, i 2)) (fun p _ => ix3 b p.1 p.2) ?_ ?_ ?_ ?_ ?_
  · intro i _
    exact Finset.mem_product.mpr ⟨Finset.mem_univ _, Finset.mem_univ _⟩
  · intro p _
    exact Finset.mem_filter.mpr ⟨Finset.mem_univ _, (drop_eq_iff h _ b).mpr rfl⟩
  · intro i hi
    have h0 := (drop_eq_iff h i b).mp (Finset.mem_filter.mp hi).2
    subst h0
    exact (eq_ix3 i).symm
  · intro p _
    rfl
  · intro i hi
    have h0 := (drop_eq_iff h i b).mp (Finset.mem_filter.mp hi).2
    subst h0
    exact congrArg y (eq_ix3 i)

/-! ### The stages at row b -/

section Stages
variable (x0 : IVec S4096x200 32) (x1 : FVec Ideal S4096x200 .f32) (x2 : FVec Ideal S4096 .f32)
    (x3 : FVec Ideal S1000000 .f32) (x4 : FVec Ideal S1000000x64 .f32) (x5 x6 : FVec Ideal S_ .f32) (b : Fin 4096)

/-- The linear term: the sum over features of weight times value. -/
theorem v8_at : val_main_v8 (F := Ideal) x0 x1 x3 (ix1 b)
    = ∑ f : Fin 200, val_main_v6 (F := Ideal) x0 x3 (ix2 b f) * x1 (ix2 b f) := by
  rw [val_main_v8_apply, val_main_cst_apply, Ideal.ofBits_def, Ideal.ofBits_zero_f32, zero_add]
  refine Finset.sum_congr rfl fun k _ => ?_
  rw [idx8, val_main_v7_apply]
  rfl

/-- A factor row times the feature value. -/
theorem v20_at (f : Fin 200) (k : Fin 64) : val_main_v20 (F := Ideal) x0 x1 x4 (ix3 b f k)
    = val_main_v17 (F := Ideal) x0 x4 (ix3 b f k) * x1 (ix2 b f) := by
  rw [val_main_v20_apply, val_main_v19_apply, val_main_v18_apply, idx1819]
  rfl

/-- The factor sums: for each factor, the sum over features. -/
theorem v21_at (k : Fin 64) : val_main_v21 (F := Ideal) x0 x1 x4 (ix2 b k)
    = ∑ f : Fin 200, val_main_v17 (F := Ideal) x0 x4 (ix3 b f k) * x1 (ix2 b f) := by
  rw [val_main_v21_apply, val_main_cst_3_apply, Ideal.ofBits_def, Ideal.ofBits_zero_f32, zero_add]
  refine Finset.sum_congr rfl fun f _ => ?_
  rw [idx21, v20_at]

/-- The sum over factors of the squared factor sums. -/
theorem v23_at : val_main_v23 (F := Ideal) x0 x1 x4 (ix1 b)
    = ∑ k : Fin 64, (∑ f : Fin 200, val_main_v17 (F := Ideal) x0 x4 (ix3 b f k) * x1 (ix2 b f))
        * (∑ f : Fin 200, val_main_v17 (F := Ideal) x0 x4 (ix3 b f k) * x1 (ix2 b f)) := by
  rw [val_main_v23_apply, val_main_cst_4_apply, Ideal.ofBits_def, Ideal.ofBits_zero_f32, zero_add]
  refine Finset.sum_congr rfl fun k _ => ?_
  rw [idx23, val_main_v22_apply, v21_at]
  rfl

/-- The sum over features and factors of the squared products. -/
theorem v25_at : val_main_v25 (F := Ideal) x0 x1 x4 (ix1 b)
    = ∑ f : Fin 200, ∑ k : Fin 64, (val_main_v17 (F := Ideal) x0 x4 (ix3 b f k) * x1 (ix2 b f))
        * (val_main_v17 (F := Ideal) x0 x4 (ix3 b f k) * x1 (ix2 b f)) := by
  unfold val_main_v25
  simp only [Host.reduceAdd, Ideal.hostReduceAdd_def]
  unfold Ideal.hostReduceAdd
  rw [sum_fiber, val_main_cst_5_apply, Ideal.ofBits_def, Ideal.ofBits_zero_f32, zero_add]
  refine Finset.sum_congr rfl fun f _ => Finset.sum_congr rfl fun k _ => ?_
  rw [val_main_v24_apply, v20_at]
  rfl

/-- The pre-activation. -/
theorem pre_eq : val_main_v29 (F := Ideal) x0 x1 x3 x4 x5 (ix1 b)
    = preact (fun f => val_main_v6 (F := Ideal) x0 x3 (ix2 b f)) (fun f => x1 (ix2 b f))
        (fun f k => val_main_v17 (F := Ideal) x0 x4 (ix3 b f k)) (x5 ix0) := by
  rw [val_main_v29_apply, val_main_v10_apply, val_main_v28_apply, val_main_v26_apply, val_main_v27_apply,
    val_main_cst_6_apply, val_main_v9_apply, v8_at, v23_at, v25_at]
  rfl

/-- The scale: the softplus of the pre-activation. -/
theorem sp_eq : val_main_v30 (F := Ideal) x0 x1 x3 x4 x5 (ix1 b)
    = spR (val_main_v29 (F := Ideal) x0 x1 x3 x4 x5 (ix1 b)) := by
  rw [val_main_v30_apply, val_main_call0_v4_apply, val_main_call0_v6_apply, val_main_call0_v11_apply,
    val_main_call0_v1_apply, val_main_call0_v10_apply, val_main_call0_v9_apply, val_main_call0_v8_apply,
    val_main_call0_v7_apply, val_main_call0_v3_apply, val_main_call0_v0_apply, val_main_call0_v2_apply,
    val_main_call0_v5_apply, val_main_call0_cst_apply]
  rfl

end Stages

/-- The reference's probability at row b. -/
theorem ref_proba (x0 : IVec S4096x200 32) (x1 : FVec Ideal S4096x200 .f32) (x2 : FVec Ideal S4096 .f32)
    (x3 : FVec Ideal S1000000 .f32) (x4 : FVec Ideal S1000000x64 .f32) (x5 x6 : FVec Ideal S_ .f32) (b : Fin 4096) :
    val_main_v38 (F := Ideal) x0 x1 x2 x3 x4 x5 x6 (ix1 b)
      = probR (preact (fun f => val_main_v6 (F := Ideal) x0 x3 (ix2 b f)) (fun f => x1 (ix2 b f))
          (fun f k => val_main_v17 (F := Ideal) x0 x4 (ix3 b f k)) (x5 ix0)) (x2 (ix1 b)) (x6 ix0) := by
  rw [val_main_v38_apply, val_main_v37_apply, val_main_cst_8_apply, val_main_v36_apply, val_main_v35_apply,
    val_main_cst_7_apply, val_main_v34_apply, val_main_v31_apply, val_main_v33_apply, val_main_v32_apply,
    sp_eq, pre_eq]
  rfl

/-- The reference's decision at row b. -/
theorem ref_bin (x0 : IVec S4096x200 32) (x1 : FVec Ideal S4096x200 .f32) (x2 : FVec Ideal S4096 .f32)
    (x3 : FVec Ideal S1000000 .f32) (x4 : FVec Ideal S1000000x64 .f32) (x5 x6 : FVec Ideal S_ .f32) (b : Fin 4096) :
    val_main_v43 (F := Ideal) x0 x1 x2 x3 x4 x5 x6 (ix1 b)
      = binOf (probR (preact (fun f => val_main_v6 (F := Ideal) x0 x3 (ix2 b f)) (fun f => x1 (ix2 b f))
          (fun f k => val_main_v17 (F := Ideal) x0 x4 (ix3 b f k)) (x5 ix0)) (x2 (ix1 b)) (x6 ix0)) := by
  rw [val_main_v43_apply, val_main_v40_apply, val_main_v41_apply, val_main_v42_apply, val_main_cst_10_apply,
    val_main_cst_11_apply, val_main_v39_apply, val_main_cst_9_apply, ref_proba]
  rfl

end Cert.Surv.R

end
-- ==== Proof.PreFacts.lean ====
/-
  What the precondition says of the inputs, element by element: every float input holds real numbers, every price is
  positive, and every feature index lies in [0, 1000000) when read as a signed integer.
-/
import proofs.«403920_j51737176047793_1_alg».proof.Pre_finite_inputs
import Idealize.ShloMosaic.PureOps.Ideal
import Idealize.ShloMosaic.PureOps.Ideal.Laws
import Idealize.ShloMosaic.Lib.ReduceAll
import Idealize.ShloMosaic.Lib.ValueIdx
import Idealize.ShloMosaic.Lib.StableHlo.Predicate

noncomputable section

namespace Cert.Surv

open Idealize.ShloMosaic Idealize.ShloMosaic.ValueIdx Cert.Pre_finite_inputs

/-- The word 0x7F800000 is +∞. -/
private theorem top_word : Ideal.ofBits .f32 0x7F800000#32 = (⊤ : EReal) := by
  simp [Ideal.ofBits, Ideal.ieee]

/-- An extended real whose absolute value is below +∞ is a real number. -/
private theorem real_of_abs_lt_top (x : EReal) (h : max x (-x) < (⊤ : EReal)) : ∃ r : ℝ, x = (r : EReal) := by
  induction x using EReal.rec with
  | bot => simp at h
  | coe r => exact ⟨r, rfl⟩
  | top => simp at h

/-- The rank-zero shape has one index. -/
private instance subsingleton_idx0 : Subsingleton S_.Idx := ⟨fun a b => funext fun d => d.elim0⟩

/-- `|x| < +∞` read at one element of an array compared against the broadcast word. -/
private theorem finite_of_bcast {s : Shape} (hb : S_.BroadcastsInDim s (![] : Fin 0 → Fin s.rank)) (x : FVec Ideal s .f32) (i : s.Idx)
    (h : cmpf .olt (Host.absf x) (broadcastInDim s ![] hb (constant S_ .f32 0x7F800000#32)) i = 1#1) :
    ∃ r : ℝ, x i = (r : EReal) := by
  have h' : BitVec.ofBool (decide (max (x i) (-(x i)) < Ideal.ofBits .f32 0x7F800000#32)) = 1#1 := h
  rw [StableHlo.Predicate.ofBool_eq_one_iff, decide_eq_true_eq, top_word] at h'
  exact real_of_abs_lt_top _ h'

/-- `|x| < +∞` read at the one element of a scalar. -/
private theorem finite_of_scalar (x : FVec Ideal S_ .f32) (i : S_.Idx)
    (h : cmpf .olt (Host.absf x) (constant S_ .f32 0x7F800000#32) i = 1#1) :
    ∃ r : ℝ, x i = (r : EReal) := by
  have h' : BitVec.ofBool (decide (max (x i) (-(x i)) < Ideal.ofBits .f32 0x7F800000#32)) = 1#1 := h
  rw [StableHlo.Predicate.ofBool_eq_one_iff, decide_eq_true_eq, top_word] at h'
  exact real_of_abs_lt_top _ h'

/-- `x > 0` read at one element. -/
private theorem pos_of_bcast {s : Shape} (hb : S_.BroadcastsInDim s (![] : Fin 0 → Fin s.rank)) (x : FVec Ideal s .f32) (i : s.Idx)
    (h : cmpf .ogt x (broadcastInDim s ![] hb (constant S_ .f32 0x00000000#32)) i = 1#1) :
    (0 : EReal) < x i := by
  have h' : BitVec.ofBool (decide (Ideal.ofBits .f32 0x00000000#32 < x i)) = 1#1 := h
  rw [StableHlo.Predicate.ofBool_eq_one_iff, decide_eq_true_eq, Ideal.ofBits_zero_f32] at h'
  exact h'

/-- `x ≥ 0` (signed) read at one element. -/
private theorem nonneg_of_bcast {s : Shape} (hb : S_.BroadcastsInDim s (![] : Fin 0 → Fin s.rank)) (x : IVec s 32) (i : s.Idx)
    (h : cmpi .sge x (broadcastInDim s ![] hb (constantI S_ 32 0#32)) i = 1#1) : 0 ≤ (x i).toInt := by
  have h' : IntOp.cmpi .sge (x i) 0#32 = 1#1 := h
  rw [IntOp.cmpi_sge] at h'
  exact h'

/-- `x < 1000000` (signed) read at one element. -/
private theorem lt_of_bcast {s : Shape} (hb : S_.BroadcastsInDim s (![] : Fin 0 → Fin s.rank)) (x : IVec s 32) (i : s.Idx)
    (h : cmpi .slt x (broadcastInDim s ![] hb (constantI S_ 32 1000000#32)) i = 1#1) : (x i).toInt < 1000000 := by
  have h' : IntOp.cmpi .slt (x i) 1000000#32 = 1#1 := h
  rw [IntOp.cmpi_slt] at h'
  exact h'

/-- `jnp.all` read back: a reduction by `and` into the scalar that is 1 had a 1 at every element. -/
private theorem all_of_reduce {s : Shape} {axes : List (Fin s.rank)} (m : IVec s 1) (init : IVec S_ 1)
    (hr : s.ReducesTo axes S_) (hu : 0 < S_.numel)
    (e : Host.reduce IntOp.andi m init hr hu ix0 = 1#1) (i : s.Idx) : m i = 1#1 :=
  Host.reduce_andi_all m init hr hu ix0 e i

/-- The last part of the chain: the carried conjunction, the upper index bound and the positivity of the prices. -/
private theorem part2_decode [Cert.Pre_finite_inputs.Facts] (x2 : FVec Ideal S4096 .f32) (v30 : IVec S_ 1) (v32 : IVec S4096x200 1)
    (h : fn_part2 (F := Ideal) x2 v30 v32 ix0 = 1#1) :
    v30 ix0 = 1#1 ∧ (∀ i, v32 i = 1#1) ∧ (∀ i, (0 : EReal) < x2 i) := by
  simp only [fn_part2, andi, IntOp.andi_eq_one] at h
  obtain ⟨⟨h1, h2⟩, h3⟩ := h
  exact ⟨h1, all_of_reduce _ _ _ _ h2, fun i => pos_of_bcast _ x2 i (all_of_reduce _ _ _ _ h3 i)⟩

/-- The middle part of the chain. -/
private theorem part1_decode [Cert.Pre_finite_inputs.Facts] (x0 : IVec S4096x200 32) (x2 : FVec Ideal S4096 .f32)
    (x5 x6 : FVec Ideal S_ .f32) (v13 : IVec S_ 1) (v16 : IVec S1000000x64 1)
    (h : fn_part1 (F := Ideal) x0 x2 x5 x6 v13 v16 ix0 = 1#1) :
    v13 ix0 = 1#1 ∧ (∀ i, v16 i = 1#1)
    ∧ (∀ i, ∃ r : ℝ, x5 i = (r : EReal)) ∧ (∀ i, ∃ r : ℝ, x6 i = (r : EReal))
    ∧ (∀ i, 0 ≤ (x0 i).toInt ∧ (x0 i).toInt < 1000000) ∧ (∀ i, (0 : EReal) < x2 i) := by
  unfold fn_part1 at h
  obtain ⟨h30, h32, hpos⟩ := part2_decode _ _ _ h
  simp only [andi, IntOp.andi_eq_one] at h30
  obtain ⟨⟨⟨⟨h13, h17⟩, h21⟩, h25⟩, h29⟩ := h30
  refine ⟨h13, all_of_reduce _ _ _ _ h17, fun i => finite_of_scalar x5 i (all_of_reduce _ _ _ _ h21 i),
    fun i => finite_of_scalar x6 i (all_of_reduce _ _ _ _ h25 i),
    fun i => ⟨nonneg_of_bcast _ x0 i (all_of_reduce _ _ _ _ h29 i), lt_of_bcast _ x0 i (h32 i)⟩, hpos⟩

/-- The printed precondition, all ones, read back as facts about the seven inputs. -/
theorem pre_decode [Cert.Pre_finite_inputs.Facts]
    (x0 : IVec S4096x200 32) (x1 : FVec Ideal S4096x200 .f32) (x2 : FVec Ideal S4096 .f32)
    (x3 : FVec Ideal S1000000 .f32) (x4 : FVec Ideal S1000000x64 .f32) (x5 x6 : FVec Ideal S_ .f32)
    (h : Cert.Pre_finite_inputs.fn (F := Ideal) x0 x1 x2 x3 x4 x5 x6 = fun _ => 1#1) :
    (∀ i, ∃ r : ℝ, x1 i = (r : EReal))
    ∧ (∀ i, ∃ r : ℝ, x2 i = (r : EReal) ∧ 0 < r)
    ∧ (∀ i, ∃ r : ℝ, x3 i = (r : EReal))
    ∧ (∀ i, ∃ r : ℝ, x4 i = (r : EReal))
    ∧ (∀ i, ∃ r : ℝ, x5 i = (r : EReal))
    ∧ (∀ i, ∃ r : ℝ, x6 i = (r : EReal))
    ∧ (∀ i, 0 ≤ (x0 i).toInt ∧ (x0 i).toInt < 1000000) := by
  have h0 : Cert.Pre_finite_inputs.fn (F := Ideal) x0 x1 x2 x3 x4 x5 x6 ix0 = 1#1 := congrFun h ix0
  unfold Cert.Pre_finite_inputs.fn at h0
  obtain ⟨h13, h16, h5, h6, hx0, hpos⟩ := part1_decode _ _ _ _ _ _ h0
  simp only [andi, IntOp.andi_eq_one] at h13
  obtain ⟨⟨h3, h7⟩, h12⟩ := h13
  have f2 : ∀ i, ∃ r : ℝ, x2 i = (r : EReal) := fun i => finite_of_bcast _ x2 i (all_of_reduce _ _ _ _ h7 i)
  refine ⟨fun i => finite_of_bcast _ x1 i (all_of_reduce _ _ _ _ h3 i), fun i => ?_,
    fun i => finite_of_bcast _ x3 i (all_of_reduce _ _ _ _ h12 i),
    fun i => finite_of_bcast _ x4 i (h16 i), h5, h6, hx0⟩
  obtain ⟨r, hr⟩ := f2 i
  have hp := hpos i
  rw [hr] at hp
  exact ⟨r, hr, EReal.coe_pos.1 hp⟩

end Cert.Surv

end
-- ==== Proof.KHost.lean ====
/-
  The arrays the kernel's region finds, as the host lines before it leave them: the two gathers (jnp.take fills an
  out-of-range lookup with a NaN word behind a range mask; with every index in [0, 1000000) the mask is all ones and the
  lookup is the plain gather at the wrapped index), the prices as a column, and the two scalars as [1,1] arrays.
-/
import proofs.«403920_j51737176047793_1_alg».proof.Proof.Gen.KernelIdeal.Frame
import Idealize.ShloMosaic.Lib.Pipeline.Value
import Idealize.ShloMosaic.Lib.ValueIdx
import Idealize.ShloMosaic.Lib.ValueLayout
import Idealize.ShloMosaic.Lib.ReduceAll
import Idealize.ShloMosaic.Lib.StableHlo.Run
import Idealize.ShloMosaic.Lib.StableHlo.Predicate

set_option maxRecDepth 16384

noncomputable section

namespace Cert.Surv.K

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ)

/-- The feature indices as the launch memory holds them. -/
abbrev fidx (c : Dev nD) : IVec S4096x200 32 := m ((c.tc : Thread nD τ).loc main_arg0)

/-- The start indices both lookups use: a negative index wrapped by the table's length, with a trailing unit axis. -/
abbrev starts (c : Dev nD) : IVec S4096x200x1 32 :=
  broadcastInDim S4096x200x1 ![0, 1] bcast_S4096x200_S4096x200x1_0_1
    (select (cmpi .slt (fidx m c) (broadcastInDim S4096x200 ![] bcast_S_S4096x200 (constantI S_ 32 0#32)))
      (addi (fidx m c) (broadcastInDim S4096x200 ![] bcast_S_S4096x200 (constantI S_ 32 1000000#32))) (fidx m c))

/-- The range mask both lookups carry: the start index tested against 0 and against 999999, and-ed over the unit axis. -/
abbrev rangeMask (c : Dev nD) : IVec S4096x200 1 :=
  Host.reduce IntOp.andi
    (andi (cmpi .sge (starts m c) (broadcastInDim S4096x200x1 ![] bcast_S_S4096x200x1 (constantI S_ 32 0#32)))
      (cmpi .sle (starts m c) (broadcastInDim S4096x200x1 ![0, 1, 2] bcast_S1x1x1_S4096x200x1_0_1_2
        (broadcastInDim S1x1x1 ![2] bcast_S1_S1x1x1_2 (constantI S1 32 999999#32)))))
    (constantI S_ 1 1#1) reducesTo_S4096x200x1_S4096x200_d2 h_S_

/-- A left fold by `and` from 1 over `i1` words that are all 1 is 1. -/
private theorem foldl_andi_one {ι : Type} (f : ι → BitVec 1) (l : List ι) (h : ∀ n ∈ l, f n = 1#1) :
    l.foldl (fun r n => IntOp.andi r (f n)) 1#1 = 1#1 := by
  induction l with
  | nil => rfl
  | cons a l ih =>
    have ha : IntOp.andi 1#1 (f a) = 1#1 := IntOp.andi_eq_one.2 ⟨rfl, h a (List.mem_cons_self ..)⟩
    rw [List.foldl_cons, ha]
    exact ih fun n hn => h n (List.mem_cons_of_mem _ hn)

/-- A reduction by `and` from 1 of a mask that is 1 everywhere is 1 everywhere. -/
private theorem reduce_andi_one {s t u : Shape} {axes : List (Fin s.rank)} (x : s.Idx → BitVec 1) (init : u.Idx → BitVec 1)
    (h : s.ReducesTo axes t) (hu : 0 < u.numel) (j : t.Idx) (hi : init (Shape.Idx.first hu) = 1#1) (hx : ∀ i, x i = 1#1) :
    Host.reduce IntOp.andi x init h hu j = 1#1 := by
  rw [Host.reduce_eq_foldl, hi]
  exact foldl_andi_one x _ fun n _ => hx n

/-- A broadcast read at an index is its operand read at some index. -/
private theorem bcast_exists {s t : Shape} {α : Type} (dims : Fin s.rank → Fin t.rank) (h : s.BroadcastsInDim t dims)
    (x : s.Idx → α) (j : t.Idx) : ∃ k, broadcastInDim t dims h x j = x k := ⟨_, rfl⟩

/-- With every feature index in range no index is wrapped: each start index is a feature index, so lies in [0, 1000000). -/
private theorem starts_range (c : Dev nD) (hr : ∀ i, 0 ≤ (fidx m c i).toInt ∧ (fidx m c i).toInt < 1000000)
    (i : S4096x200x1.Idx) : 0 ≤ (starts m c i).toInt ∧ (starts m c i).toInt < 1000000 := by
  obtain ⟨k, hk⟩ := bcast_exists ![0, 1] bcast_S4096x200_S4096x200x1_0_1
    (select (cmpi .slt (fidx m c) (broadcastInDim S4096x200 ![] bcast_S_S4096x200 (constantI S_ 32 0#32)))
      (addi (fidx m c) (broadcastInDim S4096x200 ![] bcast_S_S4096x200 (constantI S_ 32 1000000#32))) (fidx m c)) i
  have hc : IntOp.cmpi .slt (fidx m c k) 0#32 = 0#1 := by
    apply eq_zero_of_ne_one
    intro h1
    rw [IntOp.cmpi_slt] at h1
    have h0 : (0#32 : BitVec 32).toInt = 0 := by decide
    have := (hr k).1
    omega
  have hs : starts m c i = fidx m c k := by
    refine hk.trans ?_
    show Scalar.select (IntOp.cmpi .slt (fidx m c k) 0#32) _ _ = _
    rw [hc, select_zero]
  rw [hs]
  exact hr k

/-- With every feature index in range the range mask is all ones. -/
private theorem rangeMask_one (c : Dev nD) (hr : ∀ i, 0 ≤ (fidx m c i).toInt ∧ (fidx m c i).toInt < 1000000)
    (j : S4096x200.Idx) : rangeMask m c j = 1#1 := by
  refine reduce_andi_one _ _ _ _ j rfl fun i => ?_
  show IntOp.andi (IntOp.cmpi .sge (starts m c i) 0#32) (IntOp.cmpi .sle (starts m c i) 999999#32) = 1#1
  rw [IntOp.andi_eq_one, IntOp.cmpi_sge, IntOp.cmpi_sle]
  have h0 : (0#32 : BitVec 32).toInt = 0 := by decide
  have h1 : (999999#32 : BitVec 32).toInt = 999999 := by decide
  have := starts_range m c hr i
  omega

/-- Contents carried to a buffer's type and back are unchanged. -/
private theorem ofBuf_toBuf {T : BufTy} (x : StableHlo.TRef sig T) (v : T.Contents (Elt Idealize.ShloMosaic.Ideal)) :
    x.ofBuf (x.toBuf v) = v := by
  obtain ⟨r, h, h2, h3⟩ := x
  subst h
  rfl

/-- The feature indices read at their value type. -/
private theorem leaf_arg0 (c : Dev nD) :
    (StableHlo.TRef.of main_arg0 : StableHlo.TRef sig ⟨S4096x200, .i32⟩).ofBuf (m (c, Proc.devRef .tc main_arg0)) = fidx m c := rfl

/-- The linear weights read at their value type. -/
private theorem leaf_arg3 (c : Dev nD) :
    (StableHlo.TRef.of main_arg3 : StableHlo.TRef sig ⟨S1000000, .f32⟩).ofBuf (m (c, Proc.devRef .tc main_arg3))
      = (m ((c.tc : Thread nD τ).loc main_arg3) : S1000000.Idx → EReal) := rfl

/-- The factor rows read at their value type. -/
private theorem leaf_arg4 (c : Dev nD) :
    (StableHlo.TRef.of main_arg4 : StableHlo.TRef sig ⟨S1000000x64, .f32⟩).ofBuf (m (c, Proc.devRef .tc main_arg4))
      = (m ((c.tc : Thread nD τ).loc main_arg4) : S1000000x64.Idx → EReal) := rfl

/-- A value stored at the first lookup's result buffer is itself. -/
private theorem root_v0 (X : S4096x200.Idx → EReal) :
    (StableHlo.TRef.of main_v0 : StableHlo.TRef sig ⟨S4096x200, .f32⟩).toBuf (Val := Elt Idealize.ShloMosaic.Ideal) X = X := rfl

/-- A value stored at the second lookup's result buffer is itself. -/
private theorem root_v1 (X : S4096x200x64.Idx → EReal) :
    (StableHlo.TRef.of main_v1 : StableHlo.TRef sig ⟨S4096x200x64, .f32⟩).toBuf (Val := Elt Idealize.ShloMosaic.Ideal) X = X := rfl

/-- The first lookup as the host lines compute it: the gather behind the range mask, a NaN word elsewhere. -/
private theorem V_lin_raw (c : Dev nD) :
    (V m c main_v0 : S4096x200.Idx → EReal)
      = select (α := EReal) (rangeMask m c)
          (Host.gather gather_S1000000_S4096x200x1_S4096x200_n_0_n_n_0_2_1 (m ((c.tc : Thread nD τ).loc main_arg3) : S1000000.Idx → EReal) (starts m c))
          (broadcastInDim S4096x200 ![] bcast_S_S4096x200 (constant (F := Idealize.ShloMosaic.Ideal) S_ .f32 0x7FC00000#32)) := by
  dsimp only [Gen.V, Gen.V0]
  simp only [Gen.hostOps0, Gen.hostOps0_1, Gen.hostOps0_2, List.flatten_cons, List.flatten_nil, List.append_nil, List.cons_append, List.nil_append]
  after_results_simp
  simp only [ofBuf_toBuf, leaf_arg0, leaf_arg3]
  rw [root_v0]

/-- The second lookup as the host lines compute it: the gather behind the range mask spread along the columns. -/
private theorem V_fac_raw (c : Dev nD) :
    (V m c main_v1 : S4096x200x64.Idx → EReal)
      = select (α := EReal) (broadcastInDim S4096x200x64 ![0, 1] bcast_S4096x200_S4096x200x64_0_1 (rangeMask m c))
          (Host.gather gather_S1000000x64_S4096x200x1_S4096x200x64_2_0_n_n_0_2_164 (m ((c.tc : Thread nD τ).loc main_arg4) : S1000000x64.Idx → EReal) (starts m c))
          (broadcastInDim S4096x200x64 ![] bcast_S_S4096x200x64 (constant (F := Idealize.ShloMosaic.Ideal) S_ .f32 0x7FC00000#32)) := by
  dsimp only [Gen.V, Gen.V0]
  simp only [Gen.hostOps0, Gen.hostOps0_1, Gen.hostOps0_2, List.flatten_cons, List.flatten_nil, List.append_nil, List.cons_append, List.nil_append]
  after_results_simp
  simp only [ofBuf_toBuf, leaf_arg0, leaf_arg4]
  rw [root_v1]

/-- The gathered linear weights the region finds: with every index in range, the plain gather. -/
theorem V_lin (c : Dev nD) (hr : ∀ i, 0 ≤ (fidx m c i).toInt ∧ (fidx m c i).toInt < 1000000) :
    (V m c main_v0 : S4096x200.Idx → EReal)
      = Host.gather gather_S1000000_S4096x200x1_S4096x200_n_0_n_n_0_2_1 (m ((c.tc : Thread nD τ).loc main_arg3)) (starts m c) := by
  rw [V_lin_raw]
  funext j
  rw [select_apply, rangeMask_one m c hr j, select_one]

/-- The gathered factor rows the region finds: with every index in range, the plain gather. -/
theorem V_fac (c : Dev nD) (hr : ∀ i, 0 ≤ (fidx m c i).toInt ∧ (fidx m c i).toInt < 1000000) :
    (V m c main_v1 : S4096x200x64.Idx → EReal)
      = Host.gather gather_S1000000x64_S4096x200x1_S4096x200x64_2_0_n_n_0_2_164 (m ((c.tc : Thread nD τ).loc main_arg4)) (starts m c) := by
  rw [V_fac_raw]
  funext j
  obtain ⟨k, hk⟩ := bcast_exists ![0, 1] bcast_S4096x200_S4096x200x64_0_1 (rangeMask m c) j
  rw [select_apply, hk, rangeMask_one m c hr k, select_one]

/-- The prices as a [4096,1] column: row b holds price b. -/
theorem V_price (c : Dev nD) (b : Fin 4096) :
    (V m c main_v2 : S4096x1.Idx → EReal) (ix2 b (0 : Fin 1)) = (m ((c.tc : Thread nD τ).loc main_arg2) : S4096.Idx → EReal) (ix1 b) := by
  dsimp only [Gen.V, Gen.V0]
  simp only [Gen.hostOps0, Gen.hostOps0_1, Gen.hostOps0_2, List.flatten_cons, List.flatten_nil, List.append_nil, List.cons_append, List.nil_append]
  after_results
  show shapeCast S4096x1 (m (c, Proc.tc.devRef main_arg2)) shapeCasts_S4096_S4096x1 (ix2 b 0) = _
  refine shapeCast_apply _ _ _ (ix1 b) ?_
  rw [Shape.rowMajor_val_one, Shape.rowMajor_val_two]
  simp

/-- The intercept as a [1,1] array. -/
theorem V_icpt (c : Dev nD) :
    (V m c main_v3 : S1x1.Idx → EReal) (ix2 (0 : Fin 1) (0 : Fin 1)) = (m ((c.tc : Thread nD τ).loc main_arg5) : S_.Idx → EReal) ix0 := by
  dsimp only [Gen.V, Gen.V0]
  simp only [Gen.hostOps0, Gen.hostOps0_1, Gen.hostOps0_2, List.flatten_cons, List.flatten_nil, List.append_nil, List.cons_append, List.nil_append]
  after_results
  show shapeCast S1x1 (m (c, Proc.tc.devRef main_arg5)) shapeCasts_S_S1x1 (ix2 0 0) = _
  refine shapeCast_apply _ _ _ ix0 ?_
  have h0 : (S_.rowMajor ix0).val = 0 := Shape.rowMajorPi_zero _ _
  rw [h0, Shape.rowMajor_val_two]
  simp

/-- The shape parameter as a [1,1] array. -/
theorem V_shape (c : Dev nD) :
    (V m c main_v4 : S1x1.Idx → EReal) (ix2 (0 : Fin 1) (0 : Fin 1)) = (m ((c.tc : Thread nD τ).loc main_arg6) : S_.Idx → EReal) ix0 := by
  dsimp only [Gen.V, Gen.V0]
  simp only [Gen.hostOps0, Gen.hostOps0_1, Gen.hostOps0_2, List.flatten_cons, List.flatten_nil, List.append_nil, List.cons_append, List.nil_append]
  after_results
  show shapeCast S1x1 (m (c, Proc.tc.devRef main_arg6)) shapeCasts_S_S1x1 (ix2 0 0) = _
  refine shapeCast_apply _ _ _ ix0 ?_
  have h0 : (S_.rowMajor ix0).val = 0 := Shape.rowMajorPi_zero _ _
  rw [h0, Shape.rowMajor_val_two]
  simp

end Cert.Surv.K

end
-- ==== Proof.Bridge.lean ====
/-
  The two programs meet. Under the precondition every feature index is in range, so the kernel's masked lookups are the
  plain gathers the reference makes; every input is real and every price positive, so each row's pre-activation is a
  real number, its softplus a positive real, and the kernel's exp((0 − d)·log r) is the reference's r^(−d).
-/
import proofs.«403920_j51737176047793_1_alg».proof.Defs
import proofs.«403920_j51737176047793_1_alg».proof.Proof.Gen.KernelIdeal.Frame
import proofs.«403920_j51737176047793_1_alg».proof.Proof.Gen.ReferenceIdeal.Read
import proofs.«403920_j51737176047793_1_alg».proof.Proof.Gen.Pre_finite_inputs
import proofs.«403920_j51737176047793_1_alg».proof.Proof.Spec
import proofs.«403920_j51737176047793_1_alg».proof.Proof.PreFacts
import proofs.«403920_j51737176047793_1_alg».proof.Proof.KHost
import proofs.«403920_j51737176047793_1_alg».proof.Proof.KBlocks
import proofs.«403920_j51737176047793_1_alg».proof.Proof.RefValue
import Idealize.ShloMosaic.Lib.ValueIdx

set_option maxRecDepth 16384

noncomputable section

namespace Cert.Surv.B

open Idealize.ShloMosaic Idealize.ShloMosaic.TcCoe Idealize.ShloMosaic.ValueIdx Idealize.SL.Sem
open Cert.Surv

/-- On real data with a positive price the two spellings of the probability agree. -/
theorem row_bridge (a v : Fin 200 → EReal) (w : Fin 200 → Fin 64 → EReal) (c h d : EReal)
    (ha : ∀ f, ∃ r : ℝ, a f = (r : EReal)) (hv : ∀ f, ∃ r : ℝ, v f = (r : EReal))
    (hw' : ∀ f k, ∃ r : ℝ, w f k = (r : EReal)) (hc : ∃ r : ℝ, c = (r : EReal))
    (hh : ∃ r : ℝ, h = (r : EReal) ∧ 0 < r) (hd : ∃ r : ℝ, d = (r : EReal)) :
    probK (preact a v w c) h d = probR (preact a v w c) h d := by
  obtain ⟨x, hx⟩ := preact_real a v w c ha hv hw' hc
  obtain ⟨hr, rfl, hpos⟩ := hh
  obtain ⟨dr, rfl⟩ := hd
  rw [hx]
  exact probK_eq_probR x hr dr hpos

section Programs

open Cert.KernelIdeal Cert.KernelIdeal.Gen

variable (m : (ℓ : Loc nD τ sig) → Buf (Elt Ideal) ℓ)

/-- The start indices the kernel's lookups use are the reference's. -/
theorem starts_eq (c : Dev nD) :
    K.starts m c = Cert.ReferenceIdeal.Read.val_main_v5 (F := Ideal) (m ((c.tc : Thread nD τ).loc main_arg0)) := rfl

theorem starts_eq' (c : Dev nD) :
    K.starts m c = Cert.ReferenceIdeal.Read.val_main_v16 (F := Ideal) (m ((c.tc : Thread nD τ).loc main_arg0)) := rfl

/-- The gathered linear weights the region finds are the reference's gather. -/
theorem lin_eq (c : Dev nD) (hr : ∀ i, 0 ≤ (K.fidx m c i).toInt ∧ (K.fidx m c i).toInt < 1000000) :
    K.aLin m c = Cert.ReferenceIdeal.Read.val_main_v6 (F := Ideal) (m ((c.tc : Thread nD τ).loc main_arg0))
      (m ((c.tc : Thread nD τ).loc main_arg3)) := by
  refine (K.V_lin m c hr).trans ?_
  rw [starts_eq]
  rfl

/-- The gathered factor rows the region finds are the reference's gather. -/
theorem fac_eq (c : Dev nD) (hr : ∀ i, 0 ≤ (K.fidx m c i).toInt ∧ (K.fidx m c i).toInt < 1000000) :
    K.aFac m c = Cert.ReferenceIdeal.Read.val_main_v17 (F := Ideal) (m ((c.tc : Thread nD τ).loc main_arg0))
      (m ((c.tc : Thread nD τ).loc main_arg4)) := by
  refine (K.V_fac m c hr).trans ?_
  rw [starts_eq']
  rfl

end Programs

section Rows

open Cert.KernelIdeal Cert.KernelIdeal.Gen

variable (m : (ℓ : Loc nD τ sig) → Buf (Elt Ideal) ℓ)

/-- The seven inputs as the launch memory of device c holds them. -/
abbrev in0 (c : Dev nD) := m ((c.tc : Thread nD τ).loc main_arg0)
abbrev in1 (c : Dev nD) := m ((c.tc : Thread nD τ).loc main_arg1)
abbrev in2 (c : Dev nD) := m ((c.tc : Thread nD τ).loc main_arg2)
abbrev in3 (c : Dev nD) := m ((c.tc : Thread nD τ).loc main_arg3)
abbrev in4 (c : Dev nD) := m ((c.tc : Thread nD τ).loc main_arg4)
abbrev in5 (c : Dev nD) := m ((c.tc : Thread nD τ).loc main_arg5)
abbrev in6 (c : Dev nD) := m ((c.tc : Thread nD τ).loc main_arg6)

/-- Row b of the kernel's probability column is row b of the reference's first result. -/
theorem prob_row (c : Dev nD)
    (hpre : Cert.Pre_finite_inputs.fn (F := Ideal) (in0 m c) (in1 m c) (in2 m c) (in3 m c) (in4 m c) (in5 m c) (in6 m c) = fun _ => 1#1)
    (b : Fin 4096) :
    K.gProb m c (ix2 b (0 : Fin 1))
      = Cert.ReferenceIdeal.Read.val_main_v38 (F := Ideal) (in0 m c) (in1 m c) (in2 m c) (in3 m c) (in4 m c) (in5 m c) (in6 m c) (ix1 b) := by
  obtain ⟨h1, h2, h3, h4, h5, h6, hr⟩ := pre_decode _ _ _ _ _ _ _ hpre
  rw [R.ref_proba]
  show probK (preact (fun f => K.aLin m c (ix2 b f)) (fun f => K.aFv m c (ix2 b f)) (fun f k => K.aFac m c (ix3 b f k))
      (K.aIcpt m c (ix2 (0 : Fin 1) (0 : Fin 1)))) (K.aPrice m c (ix2 b (0 : Fin 1))) (K.aShape m c (ix2 (0 : Fin 1) (0 : Fin 1))) = _
  rw [lin_eq m c hr, fac_eq m c hr, show K.aFv m c = in1 m c from V_main_arg1 m c,
    show K.aIcpt m c (ix2 (0 : Fin 1) (0 : Fin 1)) = in5 m c ix0 from K.V_icpt m c,
    show K.aPrice m c (ix2 b (0 : Fin 1)) = in2 m c (ix1 b) from K.V_price m c b,
    show K.aShape m c (ix2 (0 : Fin 1) (0 : Fin 1)) = in6 m c ix0 from K.V_shape m c]
  exact row_bridge _ _ _ _ _ _ (fun f => h3 _) (fun f => h1 _) (fun f k => h4 _) (h5 _) (h2 _) (h6 _)

/-- Row b of the kernel's decision column is row b of the reference's second result. -/
theorem bin_row (c : Dev nD)
    (hpre : Cert.Pre_finite_inputs.fn (F := Ideal) (in0 m c) (in1 m c) (in2 m c) (in3 m c) (in4 m c) (in5 m c) (in6 m c) = fun _ => 1#1)
    (b : Fin 4096) :
    K.gBin m c (ix2 b (0 : Fin 1))
      = Cert.ReferenceIdeal.Read.val_main_v43 (F := Ideal) (in0 m c) (in1 m c) (in2 m c) (in3 m c) (in4 m c) (in5 m c) (in6 m c) (ix1 b) := by
  rw [R.ref_bin, ← R.ref_proba, ← prob_row m c hpre b]
  rfl

end Rows

end Cert.Surv.B

end
-- ==== Proof.lean ====
/-
  The claim. The kernel computes, block of 128 rows by block, a log-logistic probability per row and a decision on it;
  the reference computes the same over the whole batch. Under the precondition (finite float inputs, feature indices in
  the table's range, positive prices) the two programs end with equal results:
    * the three frames: the kernel programs' by their generated frame runs, the reference's by its generated run;
    * the idealization rewrote nothing, so `preserves` is trivial;
    * the values: the kernel's run (its blocks read as rows of one column function, through the closing reshapes)
      and the reference's run (read stage by stage) give, at every row, the specification's probability in its two
      spellings, which agree on real data with a positive price.
-/
import proofs.«403920_j51737176047793_1_alg».proof.Defs
import proofs.«403920_j51737176047793_1_alg».proof.Proof.Gen.Kernel
import proofs.«403920_j51737176047793_1_alg».proof.Proof.Gen.Kernel.Skeleton
import proofs.«403920_j51737176047793_1_alg».proof.Proof.Gen.Kernel.Launch
import proofs.«403920_j51737176047793_1_alg».proof.Proof.Gen.Kernel.Points
import proofs.«403920_j51737176047793_1_alg».proof.Proof.Gen.Kernel.Frame
import proofs.«403920_j51737176047793_1_alg».proof.Proof.Gen.KernelIdeal
import proofs.«403920_j51737176047793_1_alg».proof.Proof.Gen.KernelIdeal.Skeleton
import proofs.«403920_j51737176047793_1_alg».proof.Proof.Gen.KernelIdeal.Launch
import proofs.«403920_j51737176047793_1_alg».proof.Proof.Gen.KernelIdeal.Points
import proofs.«403920_j51737176047793_1_alg».proof.Proof.Gen.KernelIdeal.Frame
import proofs.«403920_j51737176047793_1_alg».proof.Proof.Gen.ReferenceIdeal
import proofs.«403920_j51737176047793_1_alg».proof.Proof.Gen.Pre_finite_inputs
import proofs.«403920_j51737176047793_1_alg».proof.Proof.Gen.ReferenceIdeal.Run
import proofs.«403920_j51737176047793_1_alg».proof.Proof.Gen.ReferenceIdeal.Read
import proofs.«403920_j51737176047793_1_alg».proof.Proof.Spec
import proofs.«403920_j51737176047793_1_alg».proof.Proof.KBlocks
import proofs.«403920_j51737176047793_1_alg».proof.Proof.KRun
import proofs.«403920_j51737176047793_1_alg».proof.Proof.RefValue
import proofs.«403920_j51737176047793_1_alg».proof.Proof.Bridge
import Idealize.ShloMosaic.Adequacy
import Idealize.ShloMosaic.Init

set_option maxRecDepth 16384

noncomputable section

namespace Cert.Proof

open Idealize.ShloMosaic Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2)
    (Cert.ReferenceIdeal.Value.run (F := Ideal) m ρ)

theorem preserves : Cert.preserves_Kernel_KernelIdeal := trivial

/-- Both runs end with the same two results: at every row the kernel's column value is the reference's stage value. -/
theorem algebraic : Cert.algebraic_KernelIdeal_ReferenceIdeal := by
  intro m ρ m' ρ' hpre hagree
  refine ⟨fun c => fun i => Cert.Surv.K.gProb m c (ix2 (i 0) (0 : Fin 1)),
    fun c => fun i => Cert.Surv.K.gBin m c (ix2 (i 0) (0 : Fin 1)), Cert.Surv.K.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v38_eq, (hagree c).1, (hagree c).2.1, (hagree c).2.2.1, (hagree c).2.2.2.1,
      (hagree c).2.2.2.2.1, (hagree c).2.2.2.2.2.1, (hagree c).2.2.2.2.2.2]
    funext i
    obtain ⟨b, rfl⟩ : ∃ b : Fin 4096, i = ix1 b := ⟨i 0, eq_ix1 i⟩
    exact (Cert.Surv.B.prob_row m c (hpre c) b).symm
  · rw [Cert.ReferenceIdeal.Read.val_main_v43_eq, (hagree c).1, (hagree c).2.1, (hagree c).2.2.1, (hagree c).2.2.2.1,
      (hagree c).2.2.2.2.1, (hagree c).2.2.2.2.2.1, (hagree c).2.2.2.2.2.2]
    funext i
    obtain ⟨b, rfl⟩ : ∃ b : Fin 4096, i = ix1 b := ⟨i 0, eq_ix1 i⟩
    exact (Cert.Surv.B.bin_row m c (hpre c) b).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
